-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x2x2 : Shape := ⟨4, ![32, 512, 2, 2]⟩
abbrev S32x1024x1024 : Shape := ⟨3, ![32, 1024, 1024]⟩
abbrev S256x3072 : Shape := ⟨2, ![256, 3072]⟩
abbrev S256 : Shape := ⟨1, ![256]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S256x3072 : S_.BroadcastsInDim S256x3072 (![] : Fin 0 → Fin S256x3072.rank)
  reducesTo_S256x3072_S_d0_1 : S256x3072.ReducesTo [0, 1] S_
  bcast_S_S256 : S_.BroadcastsInDim S256 (![] : Fin 0 → Fin S256.rank)
  reducesTo_S256_S_d0 : S256.ReducesTo [0] S_
  bcast_S_S32x512x2x2 : S_.BroadcastsInDim S32x512x2x2 (![] : Fin 0 → Fin S32x512x2x2.rank)
  reducesTo_S32x512x2x2_S_d0_1_2_3 : S32x512x2x2.ReducesTo [0, 1, 2, 3] S_

variable [Facts]

def fn_part1 {F : FTy → Type} [FloatOps F] (main_arg0 : IVec S32x512x2x2 32) (main_v13 : IVec S_ 1) (main_v15 : IVec S32x512x2x2 1) (main_c_5 : IVec S_ 32) : IVec S_ 1 :=
  let main_v16 : IVec S32x512x2x2 32 := broadcastInDim S32x512x2x2 ![] bcast_S_S32x512x2x2 main_c_5
  let main_v17 : IVec S32x512x2x2 1 := cmpi .slt main_arg0 main_v16
  let main_v18 : IVec S32x512x2x2 1 := andi main_v15 main_v17
  let main_c_6 : IVec S_ 1 := constantI S_ 1 1#1
  let main_v19 : IVec S_ 1 := (fun x v => Host.reduce IntOp.andi x v reducesTo_S32x512x2x2_S_d0_1_2_3 h_S_) main_v18 main_c_6
  let main_v20 : IVec S_ 1 := andi main_v13 main_v19
  main_v20

def fn {F : FTy → Type} [FloatOps F] (main_arg0 : IVec S32x512x2x2 32) (main_arg1 : FVec F S32x1024x1024 .f32) (main_arg2 : FVec F S256x3072 .f32) (main_arg3 : FVec F S256 .f32) : IVec S_ 1 :=
  let main_v0 : FVec F S32x1024x1024 .f32 := Host.absf main_arg1
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S256x3072 .f32 := Host.absf main_arg2
  let main_cst_0 : FVec F S_ .f32 := constant S_ .f32 0x7F800000#32
  let main_v5 : FVec F S256x3072 .f32 := broadcastInDim S256x3072 ![] bcast_S_S256x3072 main_cst_0
  let main_v6 : IVec S256x3072 1 := cmpf .olt main_v4 main_v5
  let main_c_1 : IVec S_ 1 := constantI S_ 1 1#1
  let main_v7 : IVec S_ 1 := (fun x v => Host.reduce IntOp.andi x v reducesTo_S256x3072_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S32x512x2x2 32 := broadcastInDim S32x512x2x2 ![] bcast_S_S32x512x2x2 main_c_4
  let main_v15 : IVec S32x512x2x2 1 := cmpi .sge main_arg0 main_v14
  let main_c_5 : IVec S_ 32 := constantI S_ 32 1024#32
  fn_part1 (F := F) main_arg0 main_v13 main_v15 main_c_5
-- ==== Kernel.lean ====
abbrev S32x512x2x2 : Shape := ⟨4, ![32, 512, 2, 2]⟩
abbrev S32x1024x1024 : Shape := ⟨3, ![32, 1024, 1024]⟩
abbrev S256x3072 : Shape := ⟨2, ![256, 3072]⟩
abbrev S256 : Shape := ⟨1, ![256]⟩
abbrev S_ : Shape := ⟨0, ![]⟩
abbrev S32x512x1x1 : Shape := ⟨4, ![32, 512, 1, 1]⟩
abbrev S32x512 : Shape := ⟨2, ![32, 512]⟩
abbrev S32x512x1 : Shape := ⟨3, ![32, 512, 1]⟩
abbrev S32x512x4 : Shape := ⟨3, ![32, 512, 4]⟩
abbrev S256x1024 : Shape := ⟨2, ![256, 1024]⟩
abbrev S1x256 : Shape := ⟨2, ![1, 256]⟩
abbrev S32x512x256 : Shape := ⟨3, ![32, 512, 256]⟩
abbrev S1x1024x1024 : Shape := ⟨3, ![1, 1024, 1024]⟩
abbrev S1x512x4 : Shape := ⟨3, ![1, 512, 4]⟩
abbrev S1x512x256 : Shape := ⟨3, ![1, 512, 256]⟩
abbrev S1024x1024 : Shape := ⟨2, ![1024, 1024]⟩
abbrev S512x4 : Shape := ⟨2, ![512, 4]⟩
abbrev S512x1024 : Shape := ⟨2, ![512, 1024]⟩
abbrev S512x1 : Shape := ⟨2, ![512, 1]⟩
abbrev S512x256 : Shape := ⟨2, ![512, 256]⟩

abbrev nBuf : Space → Nat
  | .hbm => 31
  | .vmem => 10
  | .smem => 0
  | _ => 0

abbrev bufTy : (tb : Table) → Fin (tcTables nBuf tb) → BufTy
  | .hbm, ⟨0, _⟩ => ⟨S32x512x2x2, .i32⟩
  | .hbm, ⟨1, _⟩ => ⟨S32x1024x1024, .f32⟩
  | .hbm, ⟨2, _⟩ => ⟨S256x3072, .f32⟩
  | .hbm, ⟨3, _⟩ => ⟨S256, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S32x512x2x2, .i32⟩
  | .hbm, ⟨8, _⟩ => ⟨S32x512x2x2, .i32⟩
  | .hbm, ⟨9, _⟩ => ⟨S_, .i32⟩
  | .hbm, ⟨10, _⟩ => ⟨S32x512x2x2, .i32⟩
  | .hbm, ⟨11, _⟩ => ⟨S32x512x2x2, .i32⟩
  | .hbm, ⟨12, _⟩ => ⟨S32x512x1x1, .i32⟩
  | .hbm, ⟨13, _⟩ => ⟨S32x512, .i32⟩
  | .hbm, ⟨14, _⟩ => ⟨S32x512x1x1, .i32⟩
  | .hbm, ⟨15, _⟩ => ⟨S32x512, .i32⟩
  | .hbm, ⟨16, _⟩ => ⟨S32x512x1x1, .i32⟩
  | .hbm, ⟨17, _⟩ => ⟨S32x512, .i32⟩
  | .hbm, ⟨18, _⟩ => ⟨S32x512x1x1, .i32⟩
  | .hbm, ⟨19, _⟩ => ⟨S32x512, .i32⟩
  | .hbm, ⟨20, _⟩ => ⟨S32x512x1, .i32⟩
  | .hbm, ⟨21, _⟩ => ⟨S32x512x1, .i32⟩
  | .hbm, ⟨22, _⟩ => ⟨S32x512x1, .i32⟩
  | .hbm, ⟨23, _⟩ => ⟨S32x512x1, .i32⟩
  | .hbm, ⟨24, _⟩ => ⟨S32x512x4, .i32⟩
  | .hbm, ⟨25, _⟩ => ⟨S256x3072, .bf16⟩
  | .hbm, ⟨26, _⟩ => ⟨S256x1024, .bf16⟩
  | .hbm, ⟨27, _⟩ => ⟨S256x1024, .bf16⟩
  | .hbm, ⟨28, _⟩ => ⟨S256x1024, .bf16⟩
  | .hbm, ⟨29, _⟩ => ⟨S1x256, .f32⟩
  | .hbm, ⟨30, _⟩ => ⟨S32x512x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x4, .i32⟩
  | .local _ .vmem, ⟨3, _⟩ => ⟨S1x512x4, .i32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | _, _ => ⟨S32x512x2x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S32x512x2x2 : S_.BroadcastsInDim S32x512x2x2 (![] : Fin 0 → Fin S32x512x2x2.rank)
  slices_S32x512x2x2_S32x512x1x1_0_0_0_0 : S32x512x2x2.Slices ![0, 0, 0, 0] S32x512x1x1
  shapeCasts_S32x512x1x1_S32x512 : S32x512x1x1.ShapeCasts S32x512
  slices_S32x512x2x2_S32x512x1x1_0_0_0_1 : S32x512x2x2.Slices ![0, 0, 0, 1] S32x512x1x1
  slices_S32x512x2x2_S32x512x1x1_0_0_1_0 : S32x512x2x2.Slices ![0, 0, 1, 0] S32x512x1x1
  slices_S32x512x2x2_S32x512x1x1_0_0_1_1 : S32x512x2x2.Slices ![0, 0, 1, 1] S32x512x1x1
  bcast_S32x512_S32x512x1_0_1 : S32x512.BroadcastsInDim S32x512x1 (![0, 1] : Fin 2 → Fin S32x512x1.rank)
  concatenates_S32x512x1_S32x512x1_S32x512x1_S32x512x1_S32x512x4_d2 : Shape.Concatenates [S32x512x1, S32x512x1, S32x512x1, S32x512x1] S32x512x4 2
  bitsLt_bf16_f32 : FTy.bits .bf16 < FTy.bits .f32
  slices_S256x3072_S256x1024_0_0 : S256x3072.Slices ![0, 0] S256x1024
  slices_S256x3072_S256x1024_0_1024 : S256x3072.Slices ![0, 1024] S256x1024
  slices_S256x3072_S256x1024_0_2048 : S256x3072.Slices ![0, 2048] S256x1024
  shapeCasts_S256_S1x256 : S256.ShapeCasts S1x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  iota_S512x1024_d1_w32 : S512x1024.Iotas .tc 32 [1]
  slices_S512x4_o0_0_S512x1 : S512x4.Slices ![0, 0] S512x1
  slices_S512x4_o0_1_S512x1 : S512x4.Slices ![0, 1] S512x1
  broadcasts_S512x1_S512x1024 : S512x1.Broadcasts S512x1024
  natLt_1_32 : 1 < 32
  slices_S512x4_o0_2_S512x1 : S512x4.Slices ![0, 2] S512x1
  slices_S512x4_o0_3_S512x1 : S512x4.Slices ![0, 3] S512x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S512x1024_S1024x1024_S512x1024_1_0_0_1_n_n_wf : DotDims.WF S512x1024 S1024x1024 S512x1024 [1] [0] [0] [1] [] []
  dot_S512x1024_S256x1024_S512x256_1_1_0_0_n_n_wf : DotDims.WF S512x1024 S256x1024 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4.size a ≤ S32x512x4.size a
  hwx0_1 : ∀ i : grid0.Coords, EltTy.bits .i32 = 32 ∨ (Rect.block (s := S32x512x4) S1x512x4.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S32x512x256.size a
  hwx0_6 : ∀ i : grid0.Coords, EltTy.bits .f32 = 32 ∨ (Rect.block (s := S32x512x256) S1x512x256.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x512x2x2 : Shape := ⟨4, ![32, 512, 2, 2]⟩
abbrev S32x1024x1024 : Shape := ⟨3, ![32, 1024, 1024]⟩
abbrev S256x3072 : Shape := ⟨2, ![256, 3072]⟩
abbrev S256 : Shape := ⟨1, ![256]⟩
abbrev S32x512x1x1 : Shape := ⟨4, ![32, 512, 1, 1]⟩
abbrev S32x512 : Shape := ⟨2, ![32, 512]⟩
abbrev S32x512x1 : Shape := ⟨3, ![32, 512, 1]⟩
abbrev S_ : Shape := ⟨0, ![]⟩
abbrev S1 : Shape := ⟨1, ![1]⟩
abbrev S1x1x1 : Shape := ⟨3, ![1, 1, 1]⟩
abbrev S32x512x1024 : Shape := ⟨3, ![32, 512, 1024]⟩
abbrev S32x512x3072 : Shape := ⟨3, ![32, 512, 3072]⟩
abbrev S32x512x256 : Shape := ⟨3, ![32, 512, 256]⟩
abbrev S1x1x256 : Shape := ⟨3, ![1, 1, 256]⟩

abbrev nBuf : Space → Nat
  | .hbm => 118
  | .vmem => 0
  | .smem => 0
  | _ => 0

abbrev bufTy : (tb : Table) → Fin (tcTables nBuf tb) → BufTy
  | .hbm, ⟨0, _⟩ => ⟨S32x512x2x2, .i32⟩
  | .hbm, ⟨1, _⟩ => ⟨S32x1024x1024, .f32⟩
  | .hbm, ⟨2, _⟩ => ⟨S256x3072, .f32⟩
  | .hbm, ⟨3, _⟩ => ⟨S256, .f32⟩
  | .hbm, ⟨4, _⟩ => ⟨S32x512x1x1, .i32⟩
  | .hbm, ⟨5, _⟩ => ⟨S32x512, .i32⟩
  | .hbm, ⟨6, _⟩ => ⟨S32x512x1, .i32⟩
  | .hbm, ⟨7, _⟩ => ⟨S_, .i32⟩
  | .hbm, ⟨8, _⟩ => ⟨S32x512x1, .i32⟩
  | .hbm, ⟨9, _⟩ => ⟨S32x512x1, .i1⟩
  | .hbm, ⟨10, _⟩ => ⟨S_, .i32⟩
  | .hbm, ⟨11, _⟩ => ⟨S32x512x1, .i32⟩
  | .hbm, ⟨12, _⟩ => ⟨S32x512x1, .i32⟩
  | .hbm, ⟨13, _⟩ => ⟨S32x512x1, .i32⟩
  | .hbm, ⟨14, _⟩ => ⟨S1, .i32⟩
  | .hbm, ⟨15, _⟩ => ⟨S_, .i32⟩
  | .hbm, ⟨16, _⟩ => ⟨S32x512x1, .i32⟩
  | .hbm, ⟨17, _⟩ => ⟨S32x512x1, .i1⟩
  | .hbm, ⟨18, _⟩ => ⟨S1x1x1, .i32⟩
  | .hbm, ⟨19, _⟩ => ⟨S32x512x1, .i32⟩
  | .hbm, ⟨20, _⟩ => ⟨S32x512x1, .i1⟩
  | .hbm, ⟨21, _⟩ => ⟨S32x512x1, .i1⟩
  | .hbm, ⟨22, _⟩ => ⟨S_, .i1⟩
  | .hbm, ⟨23, _⟩ => ⟨S32x512, .i1⟩
  | .hbm, ⟨24, _⟩ => ⟨S32x512x1024, .f32⟩
  | .hbm, ⟨25, _⟩ => ⟨S32x512x1024, .i1⟩
  | .hbm, ⟨26, _⟩ => ⟨S_, .f32⟩
  | .hbm, ⟨27, _⟩ => ⟨S32x512x1024, .f32⟩
  | .hbm, ⟨28, _⟩ => ⟨S32x512x1024, .f32⟩
  | .hbm, ⟨29, _⟩ => ⟨S32x512x1x1, .i32⟩
  | .hbm, ⟨30, _⟩ => ⟨S32x512, .i32⟩
  | .hbm, ⟨31, _⟩ => ⟨S32x512x1, .i32⟩
  | .hbm, ⟨32, _⟩ => ⟨S_, .i32⟩
  | .hbm, ⟨33, _⟩ => ⟨S32x512x1, .i32⟩
  | .hbm, ⟨34, _⟩ => ⟨S32x512x1, .i1⟩
  | .hbm, ⟨35, _⟩ => ⟨S_, .i32⟩
  | .hbm, ⟨36, _⟩ => ⟨S32x512x1, .i32⟩
  | .hbm, ⟨37, _⟩ => ⟨S32x512x1, .i32⟩
  | .hbm, ⟨38, _⟩ => ⟨S32x512x1, .i32⟩
  | .hbm, ⟨39, _⟩ => ⟨S1, .i32⟩
  | .hbm, ⟨40, _⟩ => ⟨S_, .i32⟩
  | .hbm, ⟨41, _⟩ => ⟨S32x512x1, .i32⟩
  | .hbm, ⟨42, _⟩ => ⟨S32x512x1, .i1⟩
  | .hbm, ⟨43, _⟩ => ⟨S1x1x1, .i32⟩
  | .hbm, ⟨44, _⟩ => ⟨S32x512x1, .i32⟩
  | .hbm, ⟨45, _⟩ => ⟨S32x512x1, .i1⟩
  | .hbm, ⟨46, _⟩ => ⟨S32x512x1, .i1⟩
  | .hbm, ⟨47, _⟩ => ⟨S_, .i1⟩
  | .hbm, ⟨48, _⟩ => ⟨S32x512, .i1⟩
  | .hbm, ⟨49, _⟩ => ⟨S32x512x1024, .f32⟩
  | .hbm, ⟨50, _⟩ => ⟨S32x512x1024, .i1⟩
  | .hbm, ⟨51, _⟩ => ⟨S_, .f32⟩
  | .hbm, ⟨52, _⟩ => ⟨S32x512x1024, .f32⟩
  | .hbm, ⟨53, _⟩ => ⟨S32x512x1024, .f32⟩
  | .hbm, ⟨54, _⟩ => ⟨S32x512x1024, .f32⟩
  | .hbm, ⟨55, _⟩ => ⟨S_, .f32⟩
  | .hbm, ⟨56, _⟩ => ⟨S32x512x1024, .f32⟩
  | .hbm, ⟨57, _⟩ => ⟨S32x512x1024, .f32⟩
  | .hbm, ⟨58, _⟩ => ⟨S32x512x1x1, .i32⟩
  | .hbm, ⟨59, _⟩ => ⟨S32x512, .i32⟩
  | .hbm, ⟨60, _⟩ => ⟨S32x512x1, .i32⟩
  | .hbm, ⟨61, _⟩ => ⟨S_, .i32⟩
  | .hbm, ⟨62, _⟩ => ⟨S32x512x1, .i32⟩
  | .hbm, ⟨63, _⟩ => ⟨S32x512x1, .i1⟩
  | .hbm, ⟨64, _⟩ => ⟨S_, .i32⟩
  | .hbm, ⟨65, _⟩ => ⟨S32x512x1, .i32⟩
  | .hbm, ⟨66, _⟩ => ⟨S32x512x1, .i32⟩
  | .hbm, ⟨67, _⟩ => ⟨S32x512x1, .i32⟩
  | .hbm, ⟨68, _⟩ => ⟨S1, .i32⟩
  | .hbm, ⟨69, _⟩ => ⟨S_, .i32⟩
  | .hbm, ⟨70, _⟩ => ⟨S32x512x1, .i32⟩
  | .hbm, ⟨71, _⟩ => ⟨S32x512x1, .i1⟩
  | .hbm, ⟨72, _⟩ => ⟨S1x1x1, .i32⟩
  | .hbm, ⟨73, _⟩ => ⟨S32x512x1, .i32⟩
  | .hbm, ⟨74, _⟩ => ⟨S32x512x1, .i1⟩
  | .hbm, ⟨75, _⟩ => ⟨S32x512x1, .i1⟩
  | .hbm, ⟨76, _⟩ => ⟨S_, .i1⟩
  | .hbm, ⟨77, _⟩ => ⟨S32x512, .i1⟩
  | .hbm, ⟨78, _⟩ => ⟨S32x512x1024, .f32⟩
  | .hbm, ⟨79, _⟩ => ⟨S32x512x1024, .i1⟩
  | .hbm, ⟨80, _⟩ => ⟨S_, .f32⟩
  | .hbm, ⟨81, _⟩ => ⟨S32x512x1024, .f32⟩
  | .hbm, ⟨82, _⟩ => ⟨S32x512x1024, .f32⟩
  | .hbm, ⟨83, _⟩ => ⟨S32x512x1x1, .i32⟩
  | .hbm, ⟨84, _⟩ => ⟨S32x512, .i32⟩
  | .hbm, ⟨85, _⟩ => ⟨S32x512x1, .i32⟩
  | .hbm, ⟨86, _⟩ => ⟨S_, .i32⟩
  | .hbm, ⟨87, _⟩ => ⟨S32x512x1, .i32⟩
  | .hbm, ⟨88, _⟩ => ⟨S32x512x1, .i1⟩
  | .hbm, ⟨89, _⟩ => ⟨S_, .i32⟩
  | .hbm, ⟨90, _⟩ => ⟨S32x512x1, .i32⟩
  | .hbm, ⟨91, _⟩ => ⟨S32x512x1, .i32⟩
  | .hbm, ⟨92, _⟩ => ⟨S32x512x1, .i32⟩
  | .hbm, ⟨93, _⟩ => ⟨S1, .i32⟩
  | .hbm, ⟨94, _⟩ => ⟨S_, .i32⟩
  | .hbm, ⟨95, _⟩ => ⟨S32x512x1, .i32⟩
  | .hbm, ⟨96, _⟩ => ⟨S32x512x1, .i1⟩
  | .hbm, ⟨97, _⟩ => ⟨S1x1x1, .i32⟩
  | .hbm, ⟨98, _⟩ => ⟨S32x512x1, .i32⟩
  | .hbm, ⟨99, _⟩ => ⟨S32x512x1, .i1⟩
  | .hbm, ⟨100, _⟩ => ⟨S32x512x1, .i1⟩
  | .hbm, ⟨101, _⟩ => ⟨S_, .i1⟩
  | .hbm, ⟨102, _⟩ => ⟨S32x512, .i1⟩
  | .hbm, ⟨103, _⟩ => ⟨S32x512x1024, .f32⟩
  | .hbm, ⟨104, _⟩ => ⟨S32x512x1024, .i1⟩
  | .hbm, ⟨105, _⟩ => ⟨S_, .f32⟩
  | .hbm, ⟨106, _⟩ => ⟨S32x512x1024, .f32⟩
  | .hbm, ⟨107, _⟩ => ⟨S32x512x1024, .f32⟩
  | .hbm, ⟨108, _⟩ => ⟨S32x512x1024, .f32⟩
  | .hbm, ⟨109, _⟩ => ⟨S_, .f32⟩
  | .hbm, ⟨110, _⟩ => ⟨S32x512x1024, .f32⟩
  | .hbm, ⟨111, _⟩ => ⟨S32x512x1024, .f32⟩
  | .hbm, ⟨112, _⟩ => ⟨S32x512x1024, .f32⟩
  | .hbm, ⟨113, _⟩ => ⟨S32x512x3072, .f32⟩
  | .hbm, ⟨114, _⟩ => ⟨S32x512x256, .f32⟩
  | .hbm, ⟨115, _⟩ => ⟨S1x1x256, .f32⟩
  | .hbm, ⟨116, _⟩ => ⟨S32x512x256, .f32⟩
  | .hbm, ⟨117, _⟩ => ⟨S32x512x256, .f32⟩
  | _, _ => ⟨S32x512x2x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_c_2 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_c_3 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v7 : Ref sig .tc := ⟨.hbm, 53, rfl⟩
abbrev main_v8 : Ref sig .tc := ⟨.hbm, 54, rfl⟩
abbrev main_cst : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_c_2 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_c_3 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_cst : Ref sig .tc := ⟨.hbm, 80, rfl⟩
abbrev main_call2_v14 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_c_1 : Ref sig .tc := ⟨.hbm, 93, rfl⟩
abbrev main_call3_c_2 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_c_3 : Ref sig .tc := ⟨.hbm, 101, rfl⟩
abbrev main_call3_v11 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v18 : Ref sig .tc := ⟨.hbm, 107, rfl⟩
abbrev main_v19 : Ref sig .tc := ⟨.hbm, 108, rfl⟩
abbrev main_cst_0 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩

abbrev nD : Nat := 1
abbrev τ : Topo := Topo.v7x

variable {F : FTy → Type} [FloatOps F]

class Facts₀ : Prop where
  slices_S32x512x2x2_S32x512x1x1_0_0_0_0 : S32x512x2x2.Slices ![0, 0, 0, 0] S32x512x1x1
  shapeCasts_S32x512x1x1_S32x512 : S32x512x1x1.ShapeCasts S32x512
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S1_S1x1x1_2 : S1.BroadcastsInDim S1x1x1 (![2] : Fin 1 → Fin S1x1x1.rank)
  bcast_S1x1x1_S32x512x1_0_1_2 : S1x1x1.BroadcastsInDim S32x512x1 (![0, 1, 2] : Fin 3 → Fin S32x512x1.rank)
  reducesTo_S32x512x1_S32x512_d2 : S32x512x1.ReducesTo [2] S32x512
  h_S_ : 0 < S_.numel
  bcast_S32x512_S32x512x1024_0_1 : S32x512.BroadcastsInDim S32x512x1024 (![0, 1] : Fin 2 → Fin S32x512x1024.rank)
  bcast_S_S32x512x1024 : S_.BroadcastsInDim S32x512x1024 (![] : Fin 0 → Fin S32x512x1024.rank)
  slices_S32x512x2x2_S32x512x1x1_0_0_0_1 : S32x512x2x2.Slices ![0, 0, 0, 1] S32x512x1x1
  slices_S32x512x2x2_S32x512x1x1_0_0_1_0 : S32x512x2x2.Slices ![0, 0, 1, 0] S32x512x1x1
  slices_S32x512x2x2_S32x512x1x1_0_0_1_1 : S32x512x2x2.Slices ![0, 0, 1, 1] S32x512x1x1
  concatenates_S32x512x1024_S32x512x1024_S32x512x1024_S32x512x3072_d2 : Shape.Concatenates [S32x512x1024, S32x512x1024, S32x512x1024] S32x512x3072 2
  bcast_S256_S1x1x256_2 : S256.BroadcastsInDim S1x1x256 (![2] : Fin 1 → Fin S1x1x256.rank)
  bcast_S1x1x256_S32x512x256_0_1_2 : S1x1x256.BroadcastsInDim S32x512x256 (![0, 1, 2] : Fin 3 → Fin S32x512x256.rank)
  gather_S32x1024x1024_S32x512x1_S32x512x1024_2_1_0_0_1_2_111024_wf : GatherDims.WF S32x1024x1024 S32x512x1 S32x512x1024 [2] [1] [0] [1] [0] 2 ![1, 1, 1024]
  dot_S32x512x3072_S256x3072_S32x512x256_2_1_01_0_n_n_wf : DotDims.WF S32x512x3072 S256x3072 S32x512x256 [2] [1] [0, 1] [0] [] []

variable [Facts₀]

def gather_S32x1024x1024_S32x512x1_S32x512x1024_2_1_0_0_1_2_111024 : GatherDims S32x1024x1024 S32x512x1 S32x512x1024 where
  offsetDims := [2]
  collapsedSliceDims := [1]
  operandBatchingDims := [0]
  startIndicesBatchingDims := [0]
  startIndexMap := [1]
  indexVectorDim := 2
  sliceSizes := ![1, 1, 1024]
  wf := gather_S32x1024x1024_S32x512x1_S32x512x1024_2_1_0_0_1_2_111024_wf
def dot_S32x512x3072_S256x3072_S32x512x256_2_1_01_0_n_n : DotDims S32x512x3072 S256x3072 S32x512x256 where
  lhsContracting := [2]
  rhsContracting := [1]
  lhsNonContracting := [0, 1]
  rhsNonContracting := [0]
  lhsBatch := []
  rhsBatch := []
  wf := dot_S32x512x3072_S256x3072_S32x512x256_2_1_01_0_n_n_wf

class Facts : Prop extends Facts₀ where

variable [Facts]
-- ==== Proof.FrameK.lean ====
/-
  The frame of `Kernel`'s @main, at any float instance.

  @main is three stretches of host operations — two constants; the six operations of the clamp to [0, 1023];
  the four column slices of the clamped positions, their reshapes and broadcasts, their four-piece join into
  the [32, 512, 4] position table, the weight's format change and its three column slices, the bias's reshape —
  and then ONE region over a grid of 32 points, one per batch.  At point t the body is handed the t-th
  [1024, 1024] block of the hidden states, the t-th [512, 4] block of the position table, the three weight
  slices and the bias whole, and leaves in the output window's buffer ONE value: its single store covers the
  whole [1, 512, 256] block.  So after the body every input buffer holds what it held and the output buffer
  holds the store's payload, a pure function of the six input blocks.  With the arrays' contents at the
  region's entry named (the fold of the host operations over the launch memory), that is the proof data of the
  pipeline library's frame run; the body's triple is a symbolic execution of the body's five parts.
  The argument arrays are written by no host operation and staged, if at all, as inputs: they end as launched.
-/
import proofs.«403358_j37769942401723_3_alg».proof.Proof.Gen.Kernel.Launch
import proofs.«403358_j37769942401723_3_alg».proof.Proof.Gen.Kernel.Skeleton
import proofs.«403358_j37769942401723_3_alg».proof.Proof.Gen.Kernel.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The three stretches of host operations before the region, in order. -/
abbrev hostOpss : List (List (HloOp τ sig (Elt F))) := [hostOps0, hostOps0_1, hostOps0_2]

/-- Core `c`'s TensorCore buffers when the region is entered: the launch memory after every host operation. -/
abbrev V (c : Dev nD) (b : Ref sig .tc) : Buf (Elt F) ((c : Thread nD τ).loc b) :=
  StableHlo.after (List.flatten [hostOps0, hostOps0_1, hostOps0_2]) (fun b => m (c, b)) b

theorem hostOpss_sub : (hostOpss (F := F)).Forall fun ops => ops.Forall fun op => op.bufs ⊆ StableHlo.tcRefs τ sig :=
  ⟨hostOps0_sub, hostOps0_1_sub, hostOps0_2_sub⟩

theorem hostOpss_fresh : (hostOpss (F := F)).Forall fun ops => ops.Forall fun op => op.fresh = ∅ := by
  simp only [List.Forall]; repeat' constructor

/-- @main is the host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOpss hostOpss_sub hostOpss_fresh fun c => (main_chain c).trans rfl

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays after a frame run: the hidden states, a staged input, hold the region-entry contents; the
    positions, the weight and the bias, which no window stages, are kept by the run; each is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses and what it leaves in the output window's buffer -/

abbrev rHid : Rect S1x1024x1024 := Rect.unit (s := S1x1024x1024) ![0, 0, 0] S1x1024x1024.size inb_S1x1024x1024_S1x1024x1024_0_0_0
abbrev rIdx : Rect S1x512x4 := Rect.unit (s := S1x512x4) ![0, 0, 0] S1x512x4.size inb_S1x512x4_S1x512x4_0_0_0
abbrev rW : Rect S256x1024 := Rect.unit (s := S256x1024) ![0, 0] S256x1024.size inb_S256x1024_S256x1024_0_0
abbrev rB : Rect S1x256 := Rect.unit (s := S1x256) ![0, 0] S1x256.size inb_S1x256_S1x256_0_0
abbrev rOut : Rect S1x512x256 := Rect.unit (s := S1x512x256) ![0, 0, 0] S1x512x256.size inb_S1x512x256_S1x512x256_0_0_0

/-- The one store's payload, from the six input blocks as the body loads them. -/
def outPay (x0 : Vec F S1x1024x1024 .f32) (x1 : Vec F S1x512x4 .i32) (x2 x3 x4 : Vec F S256x1024 .bf16) (x5 : Vec F S1x256 .f32) : Vec F S1x512x256 .f32 :=
  k0_pay1 (k0_pay6 (View.ld x0 rHid) (View.ld x1 rIdx)) (k0_pay7 (View.ld x0 rHid) (View.ld x1 rIdx))
    (k0_pay8 (View.ld x0 rHid) (View.ld x1 rIdx) (View.ld x2 rW)) (View.ld x3 rW) (View.ld x4 rW) (View.ld x5 rB)

/-- The output window's buffer after the body: its one store as a piece. -/
def out0_6 (x0 : Vec F S1x1024x1024 .f32) (x1 : Vec F S1x512x4 .i32) (x2 x3 x4 : Vec F S256x1024 .bf16) (x5 : Vec F S1x256 .f32) : Vec F S1x512x256 .f32 :=
  View.canon [⟨rOut, outPay x0 x1 x2 x3 x4 x5⟩]

/-- The store's rectangle is the whole buffer. -/
theorem cover0_6 (p0 : Vec F S1x512x256 .f32) (y : S1x512x256.Idx) :
    ∃ pc ∈ ([⟨rOut, p0⟩] : List (View.Piece (Elt F) S1x512x256 .f32)), y ∈ pc.1.set :=
  View.cover_of_tiled [⟨rOut, p0⟩] S1x512x256.size (by rfl) y

/-! ## The body's triple -/

set_option maxHeartbeats 1000000 in
/-- The kernel body on whole staging buffers, the six inputs' at contents `x0 … x5` and the output's at anything, runs to
    the continuation holding the inputs' as they were and the output's at `out0_6` of them. -/
theorem sound_kernel (c : Dev nD) (E : Set ℕ) (i : grid0.Coords)
    (arg1 : Memref sig .tc .vmem S1x1024x1024 .f32) (harg1 : arg1.IsWhole) (arg2 : Memref sig .tc .vmem S1x512x4 .i32) (harg2 : arg2.IsWhole)
    (arg3 : Memref sig .tc .vmem S256x1024 .bf16) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S1x256 .f32) (harg6 : arg6.IsWhole)
    (arg7 : Memref sig .tc .vmem S1x512x256 .f32) (harg7 : arg7.IsWhole)
    (x0 : Vec F S1x1024x1024 .f32) (x1 : Vec F S1x512x4 .i32) (x2 x3 x4 : Vec F S256x1024 .bf16) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the pipeline on core `c`: the arrays as the region finds them; after the body at point `t` each
    input's buffer at its block and the output's at `out0_6` of the six input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameKI.lean ====
/-
  The frame of `KernelIdeal`'s @main, at any float instance.

  @main is three stretches of host operations — two constants; the six operations of the clamp to [0, 1023];
  the four column slices of the clamped positions, their reshapes and broadcasts, their four-piece join into
  the [32, 512, 4] position table, the weight's format change and its three column slices, the bias's reshape —
  and then ONE region over a grid of 32 points, one per batch.  At point t the body is handed the t-th
  [1024, 1024] block of the hidden states, the t-th [512, 4] block of the position table, the three weight
  slices and the bias whole, and leaves in the output window's buffer ONE value: its single store covers the
  whole [1, 512, 256] block.  So after the body every input buffer holds what it held and the output buffer
  holds the store's payload, a pure function of the six input blocks.  With the arrays' contents at the
  region's entry named (the fold of the host operations over the launch memory), that is the proof data of the
  pipeline library's frame run; the body's triple is a symbolic execution of the body's five parts.
  The argument arrays are written by no host operation and staged, if at all, as inputs: they end as launched.
-/
import proofs.«403358_j37769942401723_3_alg».proof.Proof.Gen.KernelIdeal.Launch
import proofs.«403358_j37769942401723_3_alg».proof.Proof.Gen.KernelIdeal.Skeleton
import proofs.«403358_j37769942401723_3_alg».proof.Proof.Gen.KernelIdeal.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The three stretches of host operations before the region, in order. -/
abbrev hostOpss : List (List (HloOp τ sig (Elt F))) := [hostOps0, hostOps0_1, hostOps0_2]

/-- Core `c`'s TensorCore buffers when the region is entered: the launch memory after every host operation. -/
abbrev V (c : Dev nD) (b : Ref sig .tc) : Buf (Elt F) ((c : Thread nD τ).loc b) :=
  StableHlo.after (List.flatten [hostOps0, hostOps0_1, hostOps0_2]) (fun b => m (c, b)) b

theorem hostOpss_sub : (hostOpss (F := F)).Forall fun ops => ops.Forall fun op => op.bufs ⊆ StableHlo.tcRefs τ sig :=
  ⟨hostOps0_sub, hostOps0_1_sub, hostOps0_2_sub⟩

theorem hostOpss_fresh : (hostOpss (F := F)).Forall fun ops => ops.Forall fun op => op.fresh = ∅ := by
  simp only [List.Forall]; repeat' constructor

/-- @main is the host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOpss hostOpss_sub hostOpss_fresh fun c => (main_chain c).trans rfl

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays after a frame run: the hidden states, a staged input, hold the region-entry contents; the
    positions, the weight and the bias, which no window stages, are kept by the run; each is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses and what it leaves in the output window's buffer -/

abbrev rHid : Rect S1x1024x1024 := Rect.unit (s := S1x1024x1024) ![0, 0, 0] S1x1024x1024.size inb_S1x1024x1024_S1x1024x1024_0_0_0
abbrev rIdx : Rect S1x512x4 := Rect.unit (s := S1x512x4) ![0, 0, 0] S1x512x4.size inb_S1x512x4_S1x512x4_0_0_0
abbrev rW : Rect S256x1024 := Rect.unit (s := S256x1024) ![0, 0] S256x1024.size inb_S256x1024_S256x1024_0_0
abbrev rB : Rect S1x256 := Rect.unit (s := S1x256) ![0, 0] S1x256.size inb_S1x256_S1x256_0_0
abbrev rOut : Rect S1x512x256 := Rect.unit (s := S1x512x256) ![0, 0, 0] S1x512x256.size inb_S1x512x256_S1x512x256_0_0_0

/-- The one store's payload, from the six input blocks as the body loads them. -/
def outPay (x0 : Vec F S1x1024x1024 .f32) (x1 : Vec F S1x512x4 .i32) (x2 x3 x4 : Vec F S256x1024 .bf16) (x5 : Vec F S1x256 .f32) : Vec F S1x512x256 .f32 :=
  k0_pay1 (k0_pay6 (View.ld x0 rHid) (View.ld x1 rIdx)) (k0_pay7 (View.ld x0 rHid) (View.ld x1 rIdx))
    (k0_pay8 (View.ld x0 rHid) (View.ld x1 rIdx) (View.ld x2 rW)) (View.ld x3 rW) (View.ld x4 rW) (View.ld x5 rB)

/-- The output window's buffer after the body: its one store as a piece. -/
def out0_6 (x0 : Vec F S1x1024x1024 .f32) (x1 : Vec F S1x512x4 .i32) (x2 x3 x4 : Vec F S256x1024 .bf16) (x5 : Vec F S1x256 .f32) : Vec F S1x512x256 .f32 :=
  View.canon [⟨rOut, outPay x0 x1 x2 x3 x4 x5⟩]

/-- The store's rectangle is the whole buffer. -/
theorem cover0_6 (p0 : Vec F S1x512x256 .f32) (y : S1x512x256.Idx) :
    ∃ pc ∈ ([⟨rOut, p0⟩] : List (View.Piece (Elt F) S1x512x256 .f32)), y ∈ pc.1.set :=
  View.cover_of_tiled [⟨rOut, p0⟩] S1x512x256.size (by rfl) y

/-! ## The body's triple -/

set_option maxHeartbeats 1000000 in
/-- The kernel body on whole staging buffers, the six inputs' at contents `x0 … x5` and the output's at anything, runs to
    the continuation holding the inputs' as they were and the output's at `out0_6` of them. -/
theorem sound_kernel (c : Dev nD) (E : Set ℕ) (i : grid0.Coords)
    (arg1 : Memref sig .tc .vmem S1x1024x1024 .f32) (harg1 : arg1.IsWhole) (arg2 : Memref sig .tc .vmem S1x512x4 .i32) (harg2 : arg2.IsWhole)
    (arg3 : Memref sig .tc .vmem S256x1024 .bf16) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S1x256 .f32) (harg6 : arg6.IsWhole)
    (arg7 : Memref sig .tc .vmem S1x512x256 .f32) (harg7 : arg7.IsWhole)
    (x0 : Vec F S1x1024x1024 .f32) (x1 : Vec F S1x512x4 .i32) (x2 x3 x4 : Vec F S256x1024 .bf16) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the pipeline on core `c`: the arrays as the region finds them; after the body at point `t` each
    input's buffer at its block and the output's at `out0_6` of the six input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The function both programs compute, index by index, over the extended reals.

  Each of the 32 × 512 queries names four rows of its batch's hidden-state table: the start and end of a head span
  and the start and end of a tail span.  A span's embedding is the mean of its two rows, `½ · (h[start] + h[end])`;
  the query's features are the head's embedding, the tail's and their elementwise product, 3 · 1024 numbers; the
  result is the features' product with the weight's rows plus the bias:
    out[b, q, r] = Σ_e head[e] · W[r, e] + Σ_e tail[e] · W[r, 1024 + e] + Σ_e head[e] · tail[e] · W[r, 2048 + e] + bias[r].
  Two laws of sums over the extended reals join the two programs to this form: a sum against the sum of two
  indicator rows picks the two named entries (the weights 0, 1, 2 are non-negative, so the product distributes),
  and a sum over 3072 columns is the three sums over its thirds.
-/
import Idealize.ShloMosaic.PureOps.Ideal
import Idealize.ShloMosaic.Lib.ValueIdx
import Mathlib.Data.EReal.Operations
import Mathlib.Algebra.BigOperators.Fin

noncomputable section

namespace Cert.Spec

open Idealize.ShloMosaic Idealize.ShloMosaic.ValueIdx

abbrev SPairs : Shape := ⟨4, ![32, 512, 2, 2]⟩
abbrev SHid : Shape := ⟨3, ![32, 1024, 1024]⟩
abbrev SWt : Shape := ⟨2, ![256, 3072]⟩
abbrev SBias : Shape := ⟨1, ![256]⟩
abbrev SOut : Shape := ⟨3, ![32, 512, 256]⟩

/-- The table row a position word names: its value, reduced into the table's 1024 rows (for a word in [0, 1024) it is
    the word's value). -/
def row (x : BitVec 32) : Fin 1024 := ⟨x.toNat % 1024, Nat.mod_lt _ (by decide)⟩

/-- One half, as both programs spell it. -/
def half : EReal := Ideal.ofBits .f32 0x3F000000#32

/-- Column `e` of the weight's `k`-th third. -/
def wcol (k : Fin 3) (e : Fin 1024) : Fin 3072 := ⟨k.val * 1024 + e.val, by omega⟩

/-- The embedding of span `i` (0 the head, 1 the tail) of query `(b, q)` at feature `e`: the mean of its two rows. -/
def span (p : IVec SPairs 32) (h : FVec Ideal SHid .f32) (b : Fin 32) (q : Fin 512) (i : Fin 2) (e : Fin 1024) : EReal :=
  half * (h (ix3 b (row (p (ix4 b q i 0))) e) + h (ix3 b (row (p (ix4 b q i 1))) e))

/-- The result at `(b, q, r)`. -/
def outAt (p : IVec SPairs 32) (h : FVec Ideal SHid .f32) (W : FVec Ideal SWt .f32) (bias : FVec Ideal SBias .f32)
    (b : Fin 32) (q : Fin 512) (r : Fin 256) : EReal :=
  (((∑ e : Fin 1024, span p h b q 0 e * W (ix2 r (wcol 0 e)))
      + ∑ e : Fin 1024, span p h b q 1 e * W (ix2 r (wcol 1 e)))
    + ∑ e : Fin 1024, (span p h b q 0 e * span p h b q 1 e) * W (ix2 r (wcol 2 e)))
  + bias (ix1 r)

/-- The result array. -/
def G (p : IVec SPairs 32) (h : FVec Ideal SHid .f32) (W : FVec Ideal SWt .f32) (bias : FVec Ideal SBias .f32) : FVec Ideal SOut .f32 :=
  fun j => outAt p h W bias (j 0) (j 1) (j 2)

theorem G_apply (p : IVec SPairs 32) (h : FVec Ideal SHid .f32) (W : FVec Ideal SWt .f32) (bias : FVec Ideal SBias .f32)
    (b : Fin 32) (q : Fin 512) (r : Fin 256) : G p h W bias (ix3 b q r) = outAt p h W bias b q r := rfl

/-- A sum against the sum of two indicator rows picks the two named entries. -/
theorem sum_two_indicators {n : Nat} (a b : Fin n) (x : Fin n → EReal) :
    (∑ s : Fin n, ((if s = a then (1 : EReal) else 0) + (if s = b then (1 : EReal) else 0)) * x s) = x a + x b := by
  have hd : ∀ s : Fin n, ((if s = a then (1 : EReal) else 0) + (if s = b then (1 : EReal) else 0)) * x s
      = (if s = a then x s else 0) + (if s = b then x s else 0) := by
    intro s
    rw [EReal.right_distrib_of_nonneg (by split <;> simp) (by split <;> simp)]
    congr 1 <;> split <;> simp
  simp only [hd, Finset.sum_add_distrib, Finset.sum_ite_eq', Finset.mem_univ, if_true]

/-- A sum over the 3072 columns is the three sums over its thirds. -/
theorem sum_thirds (g : Fin 3072 → EReal) :
    (∑ f : Fin 3072, g f) = ((∑ e : Fin 1024, g (wcol 0 e)) + ∑ e : Fin 1024, g (wcol 1 e)) + ∑ e : Fin 1024, g (wcol 2 e) := by
  have h1 : (∑ f : Fin 3072, g f) = (∑ i : Fin 2048, g (Fin.castAdd 1024 i)) + ∑ i : Fin 1024, g (Fin.natAdd 2048 i) :=
    Fin.sum_univ_add (a := 2048) (b := 1024) g
  have h2 : (∑ i : Fin 2048, g (Fin.castAdd 1024 i))
      = (∑ i : Fin 1024, g (Fin.castAdd 1024 (Fin.castAdd 1024 i))) + ∑ i : Fin 1024, g (Fin.castAdd 1024 (Fin.natAdd 1024 i)) :=
    Fin.sum_univ_add (a := 1024) (b := 1024) (fun i => g (Fin.castAdd 1024 i))
  rw [h1, h2]
  refine congrArg₂ (· + ·) (congrArg₂ (· + ·) ?_ ?_) ?_
  · exact Finset.sum_congr rfl fun e _ => congrArg g (Fin.ext (by simp only [wcol, Fin.coe_castAdd, Fin.coe_natAdd]; omega))
  · exact Finset.sum_congr rfl fun e _ => congrArg g (Fin.ext (by simp only [wcol, Fin.coe_castAdd, Fin.coe_natAdd]; omega))
  · exact Finset.sum_congr rfl fun e _ => congrArg g (Fin.ext (by simp only [wcol, Fin.coe_castAdd, Fin.coe_natAdd]; omega))

end Cert.Spec

end
-- ==== Proof.KPayload.lean ====
/-
  The value the kernel body stores, read at an index.
-/
import proofs.«403358_j37769942401723_3_alg».proof.Proof.FrameKI
import proofs.«403358_j37769942401723_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.TcCoe Idealize.ShloMosaic.ValueIdx

/-! ## Words: the one-hot entry's arithmetic -/

/-- A one-bit word widened to 32 bits, read signed, is 1 or 0 with the bit. -/
private theorem toInt_setWidth_ofBool (b : Bool) : ((BitVec.ofBool b).setWidth 32).toInt = if b then 1 else 0 := by
  cases b <;> decide

/-- A word whose signed value is in [0, 1024) has that unsigned value. -/
private theorem toNat_lt_of_toInt (w : BitVec 32) (h0 : 0 ≤ w.toInt) (h1 : w.toInt < 1024) : w.toNat < 1024 := by
  rw [BitVec.toInt_eq_toNat_cond] at h0 h1
  split at h0 <;> omega

/-- The lane number s below 1024 is the word w exactly when s is the row w names. -/
private theorem ofNat_eq_iff_row (s : Fin 1024) (w : BitVec 32) (h0 : 0 ≤ w.toInt) (h1 : w.toInt < 1024) :
    (BitVec.ofNat 32 s.val == w) = decide (s = Cert.Spec.row w) := by
  have hw := toNat_lt_of_toInt w h0 h1
  have hs := s.isLt
  rw [Bool.eq_iff_iff, beq_iff_eq, decide_eq_true_iff]
  constructor
  · intro h
    apply Fin.ext
    have := congrArg BitVec.toNat h
    simp only [BitVec.toNat_ofNat, Cert.Spec.row] at this ⊢
    omega
  · intro h
    apply BitVec.eq_of_toNat_eq
    have := congrArg Fin.val h
    simp only [BitVec.toNat_ofNat, Cert.Spec.row] at this ⊢
    omega

/-! ## The one-hot row of a position column -/

/-- The one-hot row of a position column: at lane s of query q it is 1 when s is the row the word at (q, k) names, else 0. -/
private theorem onehot_apply (v : IVec S512x4 32) (o : Nat) (hs : S512x4.Slices ![0, o] S512x1) (k : Fin 4) (hk : k.val = o)
    (hi : S512x1024.Iotas .tc 32 [1]) (hb : S512x1.Broadcasts S512x1024) (h1 : 1 < 32)
    (q : Fin 512) (s : Fin 1024)
    (h0 : 0 ≤ (v (ix2 q k)).toInt) (h2 : (v (ix2 q k)).toInt < 1024) :
    (sitofp (F := Ideal) .f32 (extui 32 (cmpi .eq (iota .tc S512x1024 32 [1] hi)
        (broadcastTo S512x1024 (extractStridedSlice S512x1 ![0, o] v hs) hb)) h1) : FVec Ideal S512x1024 .f32) (ix2 q s)
      = if s = Cert.Spec.row (v (ix2 q k)) then (1 : EReal) else 0 := by
  have e1 : iota .tc S512x1024 32 [1] hi (ix2 q s) = BitVec.ofNat 32 s.val :=
    iota_single_apply .tc S512x1024 32 1 hi (ix2 q s)
  have e2 : broadcastTo S512x1024 (extractStridedSlice S512x1 ![0, o] v hs) hb (ix2 q s)
      = extractStridedSlice S512x1 ![0, o] v hs (ix2 q (0 : Fin 1)) :=
    broadcastTo_apply _ hb (ix2 q s) (ix2 q (0 : Fin 1)) (fun a => by
      match a with
      | ⟨0, _⟩ => rfl
      | ⟨1, _⟩ => rfl)
  have e3 : extractStridedSlice S512x1 ![0, o] v hs (ix2 q (0 : Fin 1)) = v (ix2 q k) :=
    slice2_axis1_apply o v hs q (0 : Fin 1) k (by rw [hk]; rfl)
  show (((((IntOp.cmpi .eq (iota .tc S512x1024 32 [1] hi (ix2 q s))
      (broadcastTo S512x1024 (extractStridedSlice S512x1 ![0, o] v hs) hb (ix2 q s))).setWidth 32).toInt : ℝ)) : EReal) = _
  rw [e1, e2, e3]
  show ((((BitVec.ofBool (BitVec.ofNat 32 s.val == v (ix2 q k))).setWidth 32).toInt : ℝ) : EReal) = _
  rw [toInt_setWidth_ofBool, ofNat_eq_iff_row s _ h0 h2]
  by_cases h : s = Cert.Spec.row (v (ix2 q k))
  · simp [h]
  · simp [h]

/-! ## The two contractions read at an index -/

/-! The row-gathering product contracts the left factor's axis 1 with the table's axis 0: the operand indices at output (q, e) and contraction coordinate s are (q, s) and (s, e), axis by axis. -/

private theorem lhsG_0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhsG_1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
private theorem rhsG_0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
private theorem rhsG_1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The row-gathering product into a zero accumulator, at (q, e): the sum over the table's rows s of the left factor at (q, s) times the table at (s, e). -/
private theorem gather_matmul_apply (lhs : FVec Ideal S512x1024 .bf16) (rhs : FVec Ideal S1024x1024 .bf16) (q : Fin 512) (e : Fin 1024) :
    matmul dot_S512x1024_S1024x1024_S512x1024_1_0_0_1_n_n none lhs rhs (constant (F := Ideal) S512x1024 .f32 0x00000000#32) (ix2 q e)
      = ∑ s : Fin 1024, lhs (ix2 q s) * rhs (ix2 s e) := by
  refine (Ideal.matmul_constant_zero_apply dot_S512x1024_S1024x1024_S512x1024_1_0_0_1_n_n none lhs rhs (ix2 q e)).trans ?_
  rw [← Equiv.sum_comp (ValueIdx.contrEquiv1 dot_S512x1024_S1024x1024_S512x1024_1_0_0_1_n_n 1024 rfl rfl).symm]
  refine Finset.sum_congr rfl fun s _ => ?_
  have hk := ValueIdx.contrEquiv1_symm_val dot_S512x1024_S1024x1024_S512x1024_1_0_0_1_n_n 1024 rfl rfl s
  have el : dot_S512x1024_S1024x1024_S512x1024_1_0_0_1_n_n.lhsIdx (ix2 q e) ((ValueIdx.contrEquiv1 dot_S512x1024_S1024x1024_S512x1024_1_0_0_1_n_n 1024 rfl rfl).symm s) = ix2 q s := funext fun a => Fin.ext (by
    match a with
    | ⟨0, _⟩ => exact lhsG_0 _ _
    | ⟨1, _⟩ => exact (lhsG_1 _ _).trans hk)
  have er : dot_S512x1024_S1024x1024_S512x1024_1_0_0_1_n_n.rhsIdx (ix2 q e) ((ValueIdx.contrEquiv1 dot_S512x1024_S1024x1024_S512x1024_1_0_0_1_n_n 1024 rfl rfl).symm s) = ix2 s e := funext fun a => Fin.ext (by
    match a with
    | ⟨0, _⟩ => exact (rhsG_0 _ _).trans hk
    | ⟨1, _⟩ => exact rhsG_1 _ _)
  rw [el, er]

/-! A projection product contracts the last axis of both factors: the operand indices at output (q, r) and contraction coordinate e are (q, e) and (r, e), axis by axis. -/

private theorem lhsP_0 (i : S512x256.Idx) (c : dot_S512x1024_S256x1024_S512x256_1_1_0_0_n_n.contr.Idx) :
    (dot_S512x1024_S256x1024_S512x256_1_1_0_0_n_n.lhsIdx i c 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
private theorem lhsP_1 (i : S512x256.Idx) (c : dot_S512x1024_S256x1024_S512x256_1_1_0_0_n_n.contr.Idx) :
    (dot_S512x1024_S256x1024_S512x256_1_1_0_0_n_n.lhsIdx i c 1).val = (c ⟨0, by decide⟩).val :=
  dot_S512x1024_S256x1024_S512x256_1_1_0_0_n_n.lhsIdx_val_of_single rfl i c
private theorem rhsP_0 (i : S512x256.Idx) (c : dot_S512x1024_S256x1024_S512x256_1_1_0_0_n_n.contr.Idx) :
    (dot_S512x1024_S256x1024_S512x256_1_1_0_0_n_n.rhsIdx i c 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
private theorem rhsP_1 (i : S512x256.Idx) (c : dot_S512x1024_S256x1024_S512x256_1_1_0_0_n_n.contr.Idx) :
    (dot_S512x1024_S256x1024_S512x256_1_1_0_0_n_n.rhsIdx i c 1).val = (c ⟨0, by decide⟩).val :=
  dot_S512x1024_S256x1024_S512x256_1_1_0_0_n_n.rhsIdx_val_of_single rfl i c

/-- A projection product into a zero accumulator, at (q, r): the sum over the features e of the left factor at (q, e) times the weight slice at (r, e). -/
private theorem proj_matmul_apply (lhs : FVec Ideal S512x1024 .bf16) (rhs : FVec Ideal S256x1024 .bf16) (q : Fin 512) (r : Fin 256) :
    matmul dot_S512x1024_S256x1024_S512x256_1_1_0_0_n_n none lhs rhs (constant (F := Ideal) S512x256 .f32 0x00000000#32) (ix2 q r)
      = ∑ e : Fin 1024, lhs (ix2 q e) * rhs (ix2 r e) := by
  refine (Ideal.matmul_constant_zero_apply dot_S512x1024_S256x1024_S512x256_1_1_0_0_n_n none lhs rhs (ix2 q r)).trans ?_
  rw [← Equiv.sum_comp (ValueIdx.contrEquiv1 dot_S512x1024_S256x1024_S512x256_1_1_0_0_n_n 1024 rfl rfl).symm]
  refine Finset.sum_congr rfl fun e _ => ?_
  have hk := ValueIdx.contrEquiv1_symm_val dot_S512x1024_S256x1024_S512x256_1_1_0_0_n_n 1024 rfl rfl e
  have el : dot_S512x1024_S256x1024_S512x256_1_1_0_0_n_n.lhsIdx (ix2 q r) ((ValueIdx.contrEquiv1 dot_S512x1024_S256x1024_S512x256_1_1_0_0_n_n 1024 rfl rfl).symm e) = ix2 q e := funext fun a => Fin.ext (by
    match a with
    | ⟨0, _⟩ => exact lhsP_0 _ _
    | ⟨1, _⟩ => exact (lhsP_1 _ _).trans hk)
  have er : dot_S512x1024_S256x1024_S512x256_1_1_0_0_n_n.rhsIdx (ix2 q r) ((ValueIdx.contrEquiv1 dot_S512x1024_S256x1024_S512x256_1_1_0_0_n_n 1024 rfl rfl).symm e) = ix2 r e := funext fun a => Fin.ext (by
    match a with
    | ⟨0, _⟩ => exact rhsP_0 _ _
    | ⟨1, _⟩ => exact (rhsP_1 _ _).trans hk)
  rw [el, er]

/-! ## The statement's span -/

/-- The mean of the two rows of the hidden-state block `x0` that the position words `a`, `b` name, at feature `e`. -/
def spanOf (x0 : Vec Ideal S1x1024x1024 .f32) (a b : BitVec 32) (e : Fin 1024) : EReal :=
  Cert.Spec.half * (x0 (ix3 0 (Cert.Spec.row a) e) + x0 (ix3 0 (Cert.Spec.row b) e))

/-! ## The two span embeddings the body forms -/

/-- The position block as the body reshapes it reads the block's word. -/
private theorem idx_apply (x1 : Vec Ideal S1x512x4 .i32) (q : Fin 512) (k : Fin 4) :
    k0_pay3 (F := Ideal) x1 (ix2 q k) = x1 (ix3 0 q k) :=
  shapeCast_1ab_ab_apply x1 shapeCasts_S1x512x4_S512x4 q k

/-- The hidden-state block as the body reshapes it (its format change is the identity) reads the block's entry. -/
private theorem table_apply (x0 : Vec Ideal S1x1024x1024 .f32) (s e : Fin 1024) :
    k0_pay2 (F := Ideal) x0 (ix2 s e) = x0 (ix3 0 s e) :=
  shapeCast_1ab_ab_apply x0 shapeCasts_S1x1024x1024_S1024x1024 s e

/-- The one-hot row of column k of the position block, when its word at (q, k) is a row of the table. -/
private theorem onehot_col (x1 : Vec Ideal S1x512x4 .i32)
    (hx1 : ∀ (q : Fin 512) (k : Fin 4), 0 ≤ (x1 (ix3 0 q k)).toInt ∧ (x1 (ix3 0 q k)).toInt < 1024)
    (o : Nat) (hs : S512x4.Slices ![0, o] S512x1) (k : Fin 4) (hk : k.val = o) (q : Fin 512) (s : Fin 1024) :
    (sitofp (F := Ideal) .f32 (extui 32 (cmpi .eq (iota .tc S512x1024 32 [1] iota_S512x1024_d1_w32)
        (broadcastTo S512x1024 (extractStridedSlice S512x1 ![0, o] (k0_pay3 (F := Ideal) x1) hs) broadcasts_S512x1_S512x1024)) natLt_1_32) : FVec Ideal S512x1024 .f32) (ix2 q s)
      = if s = Cert.Spec.row (x1 (ix3 0 q k)) then (1 : EReal) else 0 := by
  have h := onehot_apply (k0_pay3 (F := Ideal) x1) o hs k hk iota_S512x1024_d1_w32 broadcasts_S512x1_S512x1024 natLt_1_32 q s
    (by rw [idx_apply]; exact (hx1 q k).1) (by rw [idx_apply]; exact (hx1 q k).2)
  rw [idx_apply] at h
  exact h

/-- The head span's embedding, as the body forms it: half the sum of the two rows the first two position words name. -/
private theorem head_apply (x0 : Vec Ideal S1x1024x1024 .f32) (x1 : Vec Ideal S1x512x4 .i32)
    (hx1 : ∀ (q : Fin 512) (k : Fin 4), 0 ≤ (x1 (ix3 0 q k)).toInt ∧ (x1 (ix3 0 q k)).toInt < 1024)
    (q : Fin 512) (e : Fin 1024) :
    k0_pay4 (F := Ideal) x0 x1 (ix2 q e) = spanOf x0 (x1 (ix3 0 q 0)) (x1 (ix3 0 q 1)) e := by
  unfold k0_pay4 spanOf
  dsimp only
  refine (mulf_apply _ _ _).trans ?_
  refine congrArg₂ (fun a b : EReal => a * b) rfl ?_
  refine (gather_matmul_apply _ _ q e).trans ?_
  refine (Finset.sum_congr rfl fun s _ => ?_).trans
    (Cert.Spec.sum_two_indicators (Cert.Spec.row (x1 (ix3 0 q 0))) (Cert.Spec.row (x1 (ix3 0 q 1))) (fun s => x0 (ix3 0 s e)))
  refine congrArg₂ (fun a b : EReal => a * b) ?_ (table_apply x0 s e)
  refine (addf_apply _ _ _).trans ?_
  refine congrArg₂ (fun a b : EReal => a + b) ?_ ?_
  · exact onehot_col x1 hx1 0 slices_S512x4_o0_0_S512x1 0 rfl q s
  · exact onehot_col x1 hx1 1 slices_S512x4_o0_1_S512x1 1 rfl q s

/-- The tail span's embedding, as the body forms it: half the sum of the two rows the last two position words name. -/
private theorem tail_apply (x0 : Vec Ideal S1x1024x1024 .f32) (x1 : Vec Ideal S1x512x4 .i32)
    (hx1 : ∀ (q : Fin 512) (k : Fin 4), 0 ≤ (x1 (ix3 0 q k)).toInt ∧ (x1 (ix3 0 q k)).toInt < 1024)
    (q : Fin 512) (e : Fin 1024) :
    k0_pay5 (F := Ideal) x0 x1 (ix2 q e) = spanOf x0 (x1 (ix3 0 q 2)) (x1 (ix3 0 q 3)) e := by
  unfold k0_pay5 spanOf
  dsimp only
  refine (mulf_apply _ _ _).trans ?_
  refine congrArg₂ (fun a b : EReal => a * b) rfl ?_
  refine (gather_matmul_apply _ _ q e).trans ?_
  refine (Finset.sum_congr rfl fun s _ => ?_).trans
    (Cert.Spec.sum_two_indicators (Cert.Spec.row (x1 (ix3 0 q 2))) (Cert.Spec.row (x1 (ix3 0 q 3))) (fun s => x0 (ix3 0 s e)))
  refine congrArg₂ (fun a b : EReal => a * b) ?_ (table_apply x0 s e)
  refine (addf_apply _ _ _).trans ?_
  refine congrArg₂ (fun a b : EReal => a + b) ?_ ?_
  · exact onehot_col x1 hx1 2 slices_S512x4_o0_2_S512x1 2 rfl q s
  · exact onehot_col x1 hx1 3 slices_S512x4_o0_3_S512x1 3 rfl q s

/-! ## The store -/

/-- The body's one store at `(0, q, r)`, from the six input blocks, when the block's position words are rows of the table:
    the head span's embedding against the first weight slice, plus the tail's against the second, plus their product's
    against the third, plus the bias. -/
theorem outPay_apply (x0 : Vec Ideal S1x1024x1024 .f32) (x1 : Vec Ideal S1x512x4 .i32) (x2 x3 x4 : Vec Ideal S256x1024 .bf16) (x5 : Vec Ideal S1x256 .f32)
    (hx1 : ∀ (q : Fin 512) (k : Fin 4), 0 ≤ (x1 (ix3 0 q k)).toInt ∧ (x1 (ix3 0 q k)).toInt < 1024)
    (q : Fin 512) (r : Fin 256) :
    Cert.KernelIdeal.Hand.outPay (F := Ideal) x0 x1 x2 x3 x4 x5 (ix3 0 q r)
      = (((∑ e : Fin 1024, spanOf x0 (x1 (ix3 0 q 0)) (x1 (ix3 0 q 1)) e * x2 (ix2 r e))
            + ∑ e : Fin 1024, spanOf x0 (x1 (ix3 0 q 2)) (x1 (ix3 0 q 3)) e * x3 (ix2 r e))
          + ∑ e : Fin 1024, (spanOf x0 (x1 (ix3 0 q 0)) (x1 (ix3 0 q 1)) e * spanOf x0 (x1 (ix3 0 q 2)) (x1 (ix3 0 q 3)) e) * x4 (ix2 r e))
        + x5 (ix2 0 r) := by
  have hz3 : (![0, 0, 0] : Fin 3 → Nat) = fun _ => 0 := funext fun a => by fin_cases a <;> rfl
  have hz2 : (![0, 0] : Fin 2 → Nat) = fun _ => 0 := funext fun a => by fin_cases a <;> rfl
  unfold Cert.KernelIdeal.Hand.outPay
  simp only [View.ld_unit_zero (S := S1x1024x1024) hz3, View.ld_unit_zero (S := S1x512x4) hz3,
    View.ld_unit_zero (S := S256x1024) hz2, View.ld_unit_zero (S := S1x256) hz2]
  unfold k0_pay1
  refine (shapeCast_ab_1ab_apply _ shapeCasts_S512x256_S1x512x256 0 q r).trans ?_
  refine (addf_apply _ _ _).trans ?_
  refine congrArg₂ (fun a b : EReal => a + b) ?_ ?_
  · refine (addf_apply _ _ _).trans ?_
    refine congrArg₂ (fun a b : EReal => a + b) ?_ ?_
    · refine (addf_apply _ _ _).trans ?_
      refine congrArg₂ (fun a b : EReal => a + b) ?_ ?_
      · unfold k0_pay8
        refine (proj_matmul_apply _ _ q r).trans ?_
        refine Finset.sum_congr rfl fun e _ => ?_
        refine congrArg₂ (fun a b : EReal => a * b) (head_apply x0 x1 hx1 q e) ?_
        rw [shapeCast_self]
      · refine (proj_matmul_apply _ _ q r).trans ?_
        refine Finset.sum_congr rfl fun e _ => ?_
        refine congrArg₂ (fun a b : EReal => a * b) (tail_apply x0 x1 hx1 q e) ?_
        rw [shapeCast_self]
    · refine (proj_matmul_apply _ _ q r).trans ?_
      refine Finset.sum_congr rfl fun e _ => ?_
      refine congrArg₂ (fun a b : EReal => a * b) ?_ ?_
      · exact congrArg₂ (fun a b : EReal => a * b) (head_apply x0 x1 hx1 q e) (tail_apply x0 x1 hx1 q e)
      · rw [shapeCast_self]
  · refine (broadcastTo_1b_ab_apply _ broadcasts_S1x256_S512x256 q r).trans ?_
    rw [shapeCast_self]

end Cert.KernelIdeal.HandValue

end
-- ==== Proof.KHost.lean ====
/-
  What the region finds in the arrays its windows stage: the host operations before it, read at an index.
-/
import proofs.«403358_j37769942401723_3_alg».proof.Proof.FrameKI
import proofs.«403358_j37769942401723_3_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HandHost

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- Column slice `k` of the weight after the format change, read at `(r, e)`: the weight at `(r, k · 1024 + e)`. -/
private theorem weight_slice_apply (W : FVec Ideal S256x3072 .f32) (k : Fin 3) (off : Fin 2 → Nat)
    (hs : S256x3072.Slices off S256x1024) (h0 : off 0 = 0) (h1 : off 1 = k.val * 1024) (r : Fin 256) (e : Fin 1024) :
    (extractStridedSlice S256x1024 off (truncf (F := Ideal) .bf16 W bitsLt_bf16_f32 : FVec Ideal S256x3072 .bf16) hs
        : FVec Ideal S256x1024 .bf16) (ix2 r e)
      = W (ix2 r (Cert.Spec.wcol k e)) := by
  refine (extractStridedSlice_apply off _ hs (ix2 r e) (ix2 r (Cert.Spec.wcol k e)) ?_).trans ?_
  · intro a
    fin_cases a
    · show r.val = off 0 + r.val
      omega
    · show (Cert.Spec.wcol k e).val = off 1 + e.val
      rw [h1]; rfl
  · rfl

/-- The clamp of every position word to [0, 1023], as the host spells it: the larger of the word and 0, then the smaller
    of that and 1023. -/
private abbrev clampP (p : IVec S32x512x2x2 32) : IVec S32x512x2x2 32 :=
  minsi (broadcastInDim S32x512x2x2 ![] bcast_S_S32x512x2x2 (constantI S_ 32 1023#32))
    (maxsi (broadcastInDim S32x512x2x2 ![] bcast_S_S32x512x2x2 (constantI S_ 32 0#32)) p)

/-- One column of the position table: the words at fixed last two coordinates `off 2`, `off 3`, as a [32, 512, 1] array. -/
private abbrev piece (P : IVec S32x512x2x2 32) (off : Fin 4 → Nat) (hs : S32x512x2x2.Slices off S32x512x1x1) : IVec S32x512x1 32 :=
  broadcastInDim S32x512x1 ![0, 1] bcast_S32x512_S32x512x1_0_1
    (shapeCast S32x512 (extractStridedSlice S32x512x1x1 off P hs) shapeCasts_S32x512x1x1_S32x512)

/-- A word in [0, 1024) is its own clamp to [0, 1023]. -/
private theorem clamp_id (x : BitVec 32) (h0 : 0 ≤ x.toInt) (h1 : x.toInt < 1024) :
    IntOp.minsi 1023#32 (IntOp.maxsi 0#32 x) = x := by
  have e1 : x.slt 0#32 = false := by
    rw [BitVec.slt]; simp; omega
  have e2 : (1023#32).slt x = false := by
    rw [BitVec.slt]; simp; omega
  unfold IntOp.minsi IntOp.maxsi
  rw [e1]; simp [e2]

/-- The clamped table read at an index, for a table of words in [0, 1024): the table. -/
private theorem clampP_apply (p : IVec S32x512x2x2 32) (j : S32x512x2x2.Idx)
    (h0 : 0 ≤ (p j).toInt) (h1 : (p j).toInt < 1024) : clampP p j = p j :=
  clamp_id (p j) h0 h1

/-- A column read at `(b, q, z)`: the table at `(b, q, i, j)`, `i`, `j` the column's fixed coordinates. -/
private theorem piece_apply (P : IVec S32x512x2x2 32) (off : Fin 4 → Nat) (hs : S32x512x2x2.Slices off S32x512x1x1)
    (i j : Fin 2) (h0 : off 0 = 0) (h1 : off 1 = 0) (h2 : off 2 = i.val) (h3 : off 3 = j.val)
    (b : Fin 32) (q : Fin 512) (z : Fin 1) :
    piece P off hs (ix3 b q z) = P (ix4 b q i j) := by
  refine (broadcastInDim_apply _ _ _ (ix3 b q z) (ix2 b q) ?_).trans ?_
  · intro a
    fin_cases a
    · rfl
    · rfl
  refine (shapeCast_apply _ _ (ix2 b q) (ix4 b q (0 : Fin 1) (0 : Fin 1)) ?_).trans ?_
  · rw [Shape.rowMajor_val_four, Shape.rowMajor_val_two]
    show ((b.val * 512 + q.val) * 1 + 0) * 1 + 0 = b.val * 512 + q.val
    omega
  refine extractStridedSlice_apply off P hs (ix4 b q (0 : Fin 1) (0 : Fin 1)) (ix4 b q i j) ?_
  intro a
  fin_cases a
  · show b.val = off 0 + b.val
    omega
  · show q.val = off 1 + q.val
    omega
  · show i.val = off 2 + 0
    omega
  · show j.val = off 3 + 0
    omega

/-- Four [32, 512, 1] columns joined along the last axis, read at `(b, q, k)`: column `k` at `(b, q, 0)`. -/
private theorem join4_apply (x : Fin 4 → IVec S32x512x1 32)
    (h : Shape.Concatenates [S32x512x1, S32x512x1, S32x512x1, S32x512x1] S32x512x4 2)
    (b : Fin 32) (q : Fin 512) (k : Fin 4) :
    concatenate S32x512x4 2 [⟨S32x512x1, x 0⟩, ⟨S32x512x1, x 1⟩, ⟨S32x512x1, x 2⟩, ⟨S32x512x1, x 3⟩] h (ix3 b q k)
      = x k (ix3 b q (0 : Fin 1)) := by
  refine concatenate_apply_piece (t := S32x512x4) (2 : Fin 3)
    [⟨S32x512x1, x 0⟩, ⟨S32x512x1, x 1⟩, ⟨S32x512x1, x 2⟩, ⟨S32x512x1, x 3⟩] h (ix3 b q k) k.val k.isLt S32x512x1 (x k) ?_ rfl k.val ?_
    (ix3 b q (0 : Fin 1)) ?_ ?_
  · fin_cases k <;> rfl
  · fin_cases k <;> rfl
  · intro a ha
    fin_cases a
    · rfl
    · rfl
    · exact absurd rfl ha
  · show k.val + 0 = k.val
    omega

/-- The position table the region stages: entry `(b, q, k)` is position word `(b, q, k / 2, k % 2)` — the clamp to
    [0, 1023] leaves a word of that range as it is. -/
theorem V_positions (c : Dev nD)
    (hp : ∀ j : S32x512x2x2.Idx, 0 ≤ ((m ((c.tc : Thread nD τ).loc main_arg0) : IVec S32x512x2x2 32) j).toInt
      ∧ ((m ((c.tc : Thread nD τ).loc main_arg0) : IVec S32x512x2x2 32) j).toInt < 1024)
    (b : Fin 32) (q : Fin 512) (k : Fin 4) :
    (V (F := Ideal) m c main_v13 : IVec S32x512x4 32) (ix3 b q k)
      = (m ((c.tc : Thread nD τ).loc main_arg0) : IVec S32x512x2x2 32) (ix4 b q ⟨k.val / 2, by omega⟩ ⟨k.val % 2, by omega⟩) := by
  have e : (V (F := Ideal) m c main_v13 : IVec S32x512x4 32)
      = concatenate S32x512x4 2
          [⟨S32x512x1, piece (clampP (m ((c.tc : Thread nD τ).loc main_arg0) : IVec S32x512x2x2 32)) ![0, 0, 0, 0] slices_S32x512x2x2_S32x512x1x1_0_0_0_0⟩,
           ⟨S32x512x1, piece (clampP (m ((c.tc : Thread nD τ).loc main_arg0) : IVec S32x512x2x2 32)) ![0, 0, 0, 1] slices_S32x512x2x2_S32x512x1x1_0_0_0_1⟩,
           ⟨S32x512x1, piece (clampP (m ((c.tc : Thread nD τ).loc main_arg0) : IVec S32x512x2x2 32)) ![0, 0, 1, 0] slices_S32x512x2x2_S32x512x1x1_0_0_1_0⟩,
           ⟨S32x512x1, piece (clampP (m ((c.tc : Thread nD τ).loc main_arg0) : IVec S32x512x2x2 32)) ![0, 0, 1, 1] slices_S32x512x2x2_S32x512x1x1_0_0_1_1⟩]
          concatenates_S32x512x1_S32x512x1_S32x512x1_S32x512x1_S32x512x4_d2 := by
    dsimp only [Hand.V]
    simp only [hostOps0, hostOps0_1, hostOps0_2, List.flatten_cons, List.flatten_nil, List.append_nil, List.cons_append, List.nil_append]
    after_results_simp
    rfl
  rw [e]
  refine (join4_apply
    ![piece (clampP (m ((c.tc : Thread nD τ).loc main_arg0) : IVec S32x512x2x2 32)) ![0, 0, 0, 0] slices_S32x512x2x2_S32x512x1x1_0_0_0_0,
      piece (clampP (m ((c.tc : Thread nD τ).loc main_arg0) : IVec S32x512x2x2 32)) ![0, 0, 0, 1] slices_S32x512x2x2_S32x512x1x1_0_0_0_1,
      piece (clampP (m ((c.tc : Thread nD τ).loc main_arg0) : IVec S32x512x2x2 32)) ![0, 0, 1, 0] slices_S32x512x2x2_S32x512x1x1_0_0_1_0,
      piece (clampP (m ((c.tc : Thread nD τ).loc main_arg0) : IVec S32x512x2x2 32)) ![0, 0, 1, 1] slices_S32x512x2x2_S32x512x1x1_0_0_1_1]
    concatenates_S32x512x1_S32x512x1_S32x512x1_S32x512x1_S32x512x4_d2 b q k).trans ?_
  fin_cases k
  · exact (piece_apply _ _ slices_S32x512x2x2_S32x512x1x1_0_0_0_0 0 0 rfl rfl rfl rfl b q 0).trans (clampP_apply _ _ (hp _).1 (hp _).2)
  · exact (piece_apply _ _ slices_S32x512x2x2_S32x512x1x1_0_0_0_1 0 1 rfl rfl rfl rfl b q 0).trans (clampP_apply _ _ (hp _).1 (hp _).2)
  · exact (piece_apply _ _ slices_S32x512x2x2_S32x512x1x1_0_0_1_0 1 0 rfl rfl rfl rfl b q 0).trans (clampP_apply _ _ (hp _).1 (hp _).2)
  · exact (piece_apply _ _ slices_S32x512x2x2_S32x512x1x1_0_0_1_1 1 1 rfl rfl rfl rfl b q 0).trans (clampP_apply _ _ (hp _).1 (hp _).2)

/-- The three weight slices the region stages: the weight's three thirds of columns (a format change is the identity
    over the extended reals). -/
theorem V_weight0 (c : Dev nD) (r : Fin 256) (e : Fin 1024) :
    (V (F := Ideal) m c main_v15 : FVec Ideal S256x1024 .bf16) (ix2 r e)
      = (m ((c.tc : Thread nD τ).loc main_arg2) : FVec Ideal S256x3072 .f32) (ix2 r (Cert.Spec.wcol 0 e)) := by
  have h : (V (F := Ideal) m c main_v15 : FVec Ideal S256x1024 .bf16)
      = (extractStridedSlice S256x1024 ![0, 0]
          (truncf (F := Ideal) .bf16 (m ((c.tc : Thread nD τ).loc main_arg2) : FVec Ideal S256x3072 .f32) bitsLt_bf16_f32 : FVec Ideal S256x3072 .bf16)
            slices_S256x3072_S256x1024_0_0 : FVec Ideal S256x1024 .bf16) := by
    dsimp only [Hand.V]
    simp only [hostOps0, hostOps0_1, hostOps0_2, List.flatten_cons, List.flatten_nil, List.append_nil, List.cons_append, List.nil_append]
    after_results
  rw [h]
  exact weight_slice_apply _ 0 _ _ rfl rfl r e
theorem V_weight1 (c : Dev nD) (r : Fin 256) (e : Fin 1024) :
    (V (F := Ideal) m c main_v16 : FVec Ideal S256x1024 .bf16) (ix2 r e)
      = (m ((c.tc : Thread nD τ).loc main_arg2) : FVec Ideal S256x3072 .f32) (ix2 r (Cert.Spec.wcol 1 e)) := by
  have h : (V (F := Ideal) m c main_v16 : FVec Ideal S256x1024 .bf16)
      = (extractStridedSlice S256x1024 ![0, 1024]
          (truncf (F := Ideal) .bf16 (m ((c.tc : Thread nD τ).loc main_arg2) : FVec Ideal S256x3072 .f32) bitsLt_bf16_f32 : FVec Ideal S256x3072 .bf16)
            slices_S256x3072_S256x1024_0_1024 : FVec Ideal S256x1024 .bf16) := by
    dsimp only [Hand.V]
    simp only [hostOps0, hostOps0_1, hostOps0_2, List.flatten_cons, List.flatten_nil, List.append_nil, List.cons_append, List.nil_append]
    after_results
  rw [h]
  exact weight_slice_apply _ 1 _ _ rfl rfl r e
theorem V_weight2 (c : Dev nD) (r : Fin 256) (e : Fin 1024) :
    (V (F := Ideal) m c main_v17 : FVec Ideal S256x1024 .bf16) (ix2 r e)
      = (m ((c.tc : Thread nD τ).loc main_arg2) : FVec Ideal S256x3072 .f32) (ix2 r (Cert.Spec.wcol 2 e)) := by
  have h : (V (F := Ideal) m c main_v17 : FVec Ideal S256x1024 .bf16)
      = (extractStridedSlice S256x1024 ![0, 2048]
          (truncf (F := Ideal) .bf16 (m ((c.tc : Thread nD τ).loc main_arg2) : FVec Ideal S256x3072 .f32) bitsLt_bf16_f32 : FVec Ideal S256x3072 .bf16)
            slices_S256x3072_S256x1024_0_2048 : FVec Ideal S256x1024 .bf16) := by
    dsimp only [Hand.V]
    simp only [hostOps0, hostOps0_1, hostOps0_2, List.flatten_cons, List.flatten_nil, List.append_nil, List.cons_append, List.nil_append]
    after_results
  rw [h]
  exact weight_slice_apply _ 2 _ _ rfl rfl r e

/-- The bias row the region stages. -/
theorem V_bias (c : Dev nD) (r : Fin 256) :
    (V (F := Ideal) m c main_v18 : FVec Ideal S1x256 .f32) (ix2 0 r)
      = (m ((c.tc : Thread nD τ).loc main_arg3) : FVec Ideal S256 .f32) (ix1 r) := by
  have e : (V (F := Ideal) m c main_v18 : FVec Ideal S1x256 .f32)
      = shapeCast S1x256 (m ((c.tc : Thread nD τ).loc main_arg3) : FVec Ideal S256 .f32) shapeCasts_S256_S1x256 := by
    dsimp only [Hand.V]
    simp only [hostOps0, hostOps0_1, hostOps0_2, List.flatten_cons, List.flatten_nil, List.append_nil, List.cons_append, List.nil_append]
    after_results
    rfl
  rw [e]
  exact shapeCast_a_1a_apply _ _ 0 r

end Cert.KernelIdeal.HandHost

end
-- ==== Proof.KValue.lean ====
/-
  The kernel's result array after the run, as one function of the argument arrays.

  Point t of the grid writes back the t-th [1, 512, 256] block of the result, and the 32 blocks tile the result
  array.  What point t writes is the body's one store over the t-th block of the hidden states, the t-th block of the
  position table and the weight slices and bias whole; read at (0, q, r) with the blocks' entries traced back to the
  argument arrays, that is the specification's value at (t, q, r).
-/
import proofs.«403358_j37769942401723_3_alg».proof.Proof.FrameKI
import proofs.«403358_j37769942401723_3_alg».proof.Proof.KPayload
import proofs.«403358_j37769942401723_3_alg».proof.Proof.KHost
import proofs.«403358_j37769942401723_3_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.KernelIdeal.HandHost
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four argument arrays on core `c`, at their literal types. -/
abbrev pairsOf (c : Dev nD) : IVec S32x512x2x2 32 := m ((c.tc : Thread nD τ).loc main_arg0)
abbrev hiddenOf (c : Dev nD) : FVec Ideal S32x1024x1024 .f32 := m ((c.tc : Thread nD τ).loc main_arg1)
abbrev weightOf (c : Dev nD) : FVec Ideal S256x3072 .f32 := m ((c.tc : Thread nD τ).loc main_arg2)
abbrev biasOf (c : Dev nD) : FVec Ideal S256 .f32 := m ((c.tc : Thread nD τ).loc main_arg3)

/-- The specification's value of the argument arrays. -/
abbrev specOf (c : Dev nD) : FVec Ideal S32x512x256 .f32 :=
  Cert.Spec.G (pairsOf m c) (hiddenOf m c) (weightOf m c) (biasOf m c)

theorem hz3 : (![0, 0, 0] : Fin 3 → Nat) = fun _ => 0 := funext fun a => by fin_cases a <;> rfl

/-- A grid point as a batch number. -/
def batchOf (t : Fin cfg0.N) : Fin 32 := ⟨t.val, Nat.lt_of_lt_of_eq t.isLt N_0⟩

/-- The printed index maps, decided over the 32 points: the hidden states', the position table's and the result's block
    index is the point on the batch axis and zero elsewhere; the weight slices' and the bias's is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## The blocks' entries, traced back to the arrays -/

theorem blk0_apply (c : Dev nD) (t : Fin cfg0.N) (s e : Fin 1024) :
    (iblk m c 0 t : Vec Ideal S1x1024x1024 .f32) (ix3 0 s e) = hiddenOf m c (ix3 (batchOf t) s e) := by
  obtain ⟨e0, e1, e2, -⟩ := idx_facts t
  show V m c main_arg1 (((cfg0.win 0).blk t).view.emb (ix3 0 s e)) = _
  rw [show ((cfg0.win 0).blk t).view.emb (ix3 0 s e) = (ix3 (batchOf t) s e : S32x1024x1024.Idx) from by
    funext a; apply Fin.ext
    match a with
    | ⟨0, _⟩ => show win0_0.index t (0 : Fin 3) * 1 + 1 * 0 = t.val; omega
    | ⟨1, _⟩ => show win0_0.index t (1 : Fin 3) * 1024 + 1 * s.val = s.val; omega
    | ⟨2, _⟩ => show win0_0.index t (2 : Fin 3) * 1024 + 1 * e.val = e.val; omega]
  exact congrFun (V_main_arg1 m c) _

theorem blk1_apply (c : Dev nD) (t : Fin cfg0.N) (q : Fin 512) (k : Fin 4) :
    (iblk m c 1 t : Vec Ideal S1x512x4 .i32) (ix3 0 q k) = (V m c main_v13 : IVec S32x512x4 32) (ix3 (batchOf t) q k) := by
  obtain ⟨-, -, -, e0, e1, e2, -⟩ := idx_facts t
  show V m c main_v13 (((cfg0.win 1).blk t).view.emb (ix3 0 q k)) = _
  rw [show ((cfg0.win 1).blk t).view.emb (ix3 0 q k) = (ix3 (batchOf t) q k : S32x512x4.Idx) from by
    funext a; apply Fin.ext
    match a with
    | ⟨0, _⟩ => show win0_1.index t (0 : Fin 3) * 1 + 1 * 0 = t.val; omega
    | ⟨1, _⟩ => show win0_1.index t (1 : Fin 3) * 512 + 1 * q.val = q.val; omega
    | ⟨2, _⟩ => show win0_1.index t (2 : Fin 3) * 4 + 1 * k.val = k.val; omega]

theorem blk2_apply (c : Dev nD) (t : Fin cfg0.N) (r : Fin 256) (e : Fin 1024) :
    (iblk m c 2 t : Vec Ideal S256x1024 .bf16) (ix2 r e) = (V m c main_v15 : FVec Ideal S256x1024 .bf16) (ix2 r e) := by
  obtain ⟨-, -, -, -, -, -, e0, e1, -⟩ := idx_facts t
  show V m c main_v15 (((cfg0.win 2).blk t).view.emb (ix2 r e)) = _
  rw [show ((cfg0.win 2).blk t).view.emb (ix2 r e) = (ix2 r e : S256x1024.Idx) from by
    funext a; apply Fin.ext
    match a with
    | ⟨0, _⟩ => show win0_2.index t (0 : Fin 2) * 256 + 1 * r.val = r.val; omega
    | ⟨1, _⟩ => show win0_2.index t (1 : Fin 2) * 1024 + 1 * e.val = e.val; omega]

theorem blk3_apply (c : Dev nD) (t : Fin cfg0.N) (r : Fin 256) (e : Fin 1024) :
    (iblk m c 3 t : Vec Ideal S256x1024 .bf16) (ix2 r e) = (V m c main_v16 : FVec Ideal S256x1024 .bf16) (ix2 r e) := by
  obtain ⟨-, -, -, -, -, -, -, -, e0, e1, -⟩ := idx_facts t
  show V m c main_v16 (((cfg0.win 3).blk t).view.emb (ix2 r e)) = _
  rw [show ((cfg0.win 3).blk t).view.emb (ix2 r e) = (ix2 r e : S256x1024.Idx) from by
    funext a; apply Fin.ext
    match a with
    | ⟨0, _⟩ => show win0_3.index t (0 : Fin 2) * 256 + 1 * r.val = r.val; omega
    | ⟨1, _⟩ => show win0_3.index t (1 : Fin 2) * 1024 + 1 * e.val = e.val; omega]

theorem blk4_apply (c : Dev nD) (t : Fin cfg0.N) (r : Fin 256) (e : Fin 1024) :
    (iblk m c 4 t : Vec Ideal S256x1024 .bf16) (ix2 r e) = (V m c main_v17 : FVec Ideal S256x1024 .bf16) (ix2 r e) := by
  obtain ⟨-, -, -, -, -, -, -, -, -, -, e0, e1, -⟩ := idx_facts t
  show V m c main_v17 (((cfg0.win 4).blk t).view.emb (ix2 r e)) = _
  rw [show ((cfg0.win 4).blk t).view.emb (ix2 r e) = (ix2 r e : S256x1024.Idx) from by
    funext a; apply Fin.ext
    match a with
    | ⟨0, _⟩ => show win0_4.index t (0 : Fin 2) * 256 + 1 * r.val = r.val; omega
    | ⟨1, _⟩ => show win0_4.index t (1 : Fin 2) * 1024 + 1 * e.val = e.val; omega]

theorem blk5_apply (c : Dev nD) (t : Fin cfg0.N) (r : Fin 256) :
    (iblk m c 5 t : Vec Ideal S1x256 .f32) (ix2 0 r) = (V m c main_v18 : FVec Ideal S1x256 .f32) (ix2 0 r) := by
  obtain ⟨-, -, -, -, -, -, -, -, -, -, -, -, e0, e1, -⟩ := idx_facts t
  show V m c main_v18 (((cfg0.win 5).blk t).view.emb (ix2 0 r)) = _
  rw [show ((cfg0.win 5).blk t).view.emb (ix2 0 r) = (ix2 0 r : S1x256.Idx) from by
    funext a; apply Fin.ext
    match a with
    | ⟨0, _⟩ => show win0_5.index t (0 : Fin 2) * 1 + 1 * 0 = 0; omega
    | ⟨1, _⟩ => show win0_5.index t (1 : Fin 2) * 256 + 1 * r.val = r.val; omega]

/-! ## What a point writes back -/

/-- The precondition's fact about the position words, on core `c`. -/
def InRange (c : Dev nD) : Prop :=
  ∀ j : S32x512x2x2.Idx, 0 ≤ (pairsOf m c j).toInt ∧ (pairsOf m c j).toInt < 1024

/-- The body's store at point `t`, read at `(0, q, r)`, is the specification's value at `(t, q, r)`. -/
theorem pay_at (c : Dev nD) (hp : InRange m c) (t : Fin cfg0.N) (q : Fin 512) (r : Fin 256) :
    outPay (F := Ideal) (iblk m c 0 t) (iblk m c 1 t) (iblk m c 2 t) (iblk m c 3 t) (iblk m c 4 t) (iblk m c 5 t) (ix3 0 q r)
      = Cert.Spec.outAt (pairsOf m c) (hiddenOf m c) (weightOf m c) (biasOf m c) (batchOf t) q r := by
  have hk : ∀ (q : Fin 512) (k : Fin 4), (iblk m c 1 t : Vec Ideal S1x512x4 .i32) (ix3 0 q k)
      = pairsOf m c (ix4 (batchOf t) q ⟨k.val / 2, by omega⟩ ⟨k.val % 2, by omega⟩) := fun q k =>
    (blk1_apply m c t q k).trans (V_positions m c hp (batchOf t) q k)
  refine (outPay_apply (iblk m c 0 t) (iblk m c 1 t) (iblk m c 2 t) (iblk m c 3 t) (iblk m c 4 t) (iblk m c 5 t)
    (fun q k => by rw [hk q k]; exact hp _) q r).trans ?_
  have hk0 : (iblk m c 1 t : Vec Ideal S1x512x4 .i32) (ix3 0 q 0) = pairsOf m c (ix4 (batchOf t) q 0 0) := hk q 0
  have hk1 : (iblk m c 1 t : Vec Ideal S1x512x4 .i32) (ix3 0 q 1) = pairsOf m c (ix4 (batchOf t) q 0 1) := hk q 1
  have hk2 : (iblk m c 1 t : Vec Ideal S1x512x4 .i32) (ix3 0 q 2) = pairsOf m c (ix4 (batchOf t) q 1 0) := hk q 2
  have hk3 : (iblk m c 1 t : Vec Ideal S1x512x4 .i32) (ix3 0 q 3) = pairsOf m c (ix4 (batchOf t) q 1 1) := hk q 3
  rw [hk0, hk1, hk2, hk3]
  have hs : ∀ (a b : BitVec 32) (e : Fin 1024), spanOf (iblk m c 0 t) a b e
      = Cert.Spec.half * (hiddenOf m c (ix3 (batchOf t) (Cert.Spec.row a) e) + hiddenOf m c (ix3 (batchOf t) (Cert.Spec.row b) e)) := fun a b e => by
    unfold spanOf; rw [blk0_apply, blk0_apply]
  unfold Cert.Spec.outAt Cert.Spec.span
  refine congrArg₂ (· + ·) (congrArg₂ (· + ·) (congrArg₂ (· + ·) ?_ ?_) ?_) ?_
  · exact Finset.sum_congr rfl fun e _ => by rw [hs, blk2_apply, V_weight0 m c r e]
  · exact Finset.sum_congr rfl fun e _ => by rw [hs, blk3_apply, V_weight1 m c r e]
  · exact Finset.sum_congr rfl fun e _ => by rw [hs, hs, blk4_apply, V_weight2 m c r e]
  · rw [blk5_apply, V_bias m c r]

/-- What point `t` writes back is block `t` of the specification's array. -/
theorem flushed6_eq (c : Dev nD) (hp : InRange m c) (t : Fin cfg0.N) :
    (dats m 0 c).flushed 6 t = ((cfg0.win 6).blk t).view.read (Elt Ideal) (specOf m c) := by
  show (cfg0.win 6).cut (grid0.coords t) ((dats m 0 c).after 6 t) = _
  rw [after0_6]
  unfold out0_6
  rw [View.canon_unit_zero hz3]
  obtain ⟨-, -, -, -, -, -, -, -, -, -, -, -, -, -, e0, e1, e2⟩ := idx_facts t
  funext j
  show outPay (F := Ideal) (iblk m c 0 t) (iblk m c 1 t) (iblk m c 2 t) (iblk m c 3 t) (iblk m c 4 t) (iblk m c 5 t) j
    = specOf m c (((cfg0.win 6).blk t).view.emb j)
  have hj0 : (j 0).val < 1 := (j 0).isLt
  have hj : (j : S1x512x256.Idx) = ix3 0 (j 1) (j 2) := by
    refine (eq_ix3 (n0 := 1) (n1 := 512) (n2 := 256) j).trans ?_
    congr 1
    exact Fin.ext (by show (j 0).val = 0; omega)
  have hemb : ((cfg0.win 6).blk t).view.emb j = (ix3 (batchOf t) (j 1) (j 2) : S32x512x256.Idx) := by
    funext a; apply Fin.ext
    match a with
    | ⟨0, _⟩ => show win0_6.index t (0 : Fin 3) * 1 + 1 * (j 0).val = t.val; omega
    | ⟨1, _⟩ => show win0_6.index t (1 : Fin 3) * 512 + 1 * (j 1).val = (j 1).val; omega
    | ⟨2, _⟩ => show win0_6.index t (2 : Fin 3) * 256 + 1 * (j 2).val = (j 2).val; omega
  rw [hemb, hj]
  exact pay_at m c hp t (j 1) (j 2)

/-- An index of the result array is in point `t`'s block iff each coordinate is in the block's range on its axis. -/
theorem mem_blk6 (t : Fin cfg0.N) (i : S32x512x256.Idx) :
    i ∈ ((cfg0.win 6).blk t).view.set ↔ ∀ a : Fin 3, win0_6.index t a * S1x512x256.size a ≤ (i a).val ∧ (i a).val < win0_6.index t a * S1x512x256.size a + S1x512x256.size a := by
  show i ∈ ((View.whole main_v19).slice (win0_6.rect t)).set ↔ _
  rw [View.set_slice_whole, Rect.mem_set_unit]
  exact Iff.rfl

/-- Every index of the result array is in the block of the point its batch coordinate names. -/
theorem cover6 (i : S32x512x256.Idx) : ∃ t : Fin cfg0.N, (cfg0.win 6).flush t = true ∧ i ∈ ((cfg0.win 6).blk t).view.set := by
  have hi0 : (i 0).val < 32 := (i 0).isLt
  have hi1 : (i 1).val < 512 := (i 1).isLt
  have hi2 : (i 2).val < 256 := (i 2).isLt
  let t : Fin cfg0.N := ⟨(i 0).val, by rw [show cfg0.N = 32 from N_0]; exact hi0⟩
  obtain ⟨-, -, -, -, -, -, -, -, -, -, -, -, -, -, e0, e1, e2⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; rw [e0]; show (i 0).val * 1 ≤ (i 0).val ∧ (i 0).val < (i 0).val * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 256 ≤ (i 2).val ∧ (i 2).val < win0_6.index t (2 : Fin 3) * 256 + 256; omega

/-- The result array after the run is the specification's. -/
theorem final6 (c : Dev nD) (hp : InRange m c) : (dats m 0 c).arrAt 6 cfg0.N = specOf m c :=
  (dats m 0 c).arrAt_eq_of_cover 6 (specOf m c) (fun t _ => flushed6_eq m c hp t) (cover6)

/-- The kernel's run, read: the result array at the specification's value of the argument arrays, the arguments unchanged. -/
theorem run (hp : ∀ c, InRange m c) : θ_run defs (onTc (τ := τ) (main (F := Ideal))) ⟨m, fun _ => 0, ρ⟩ fun r => ∀ c : Dev nD,
      r.2.mem ((c.tc : Thread nD τ).loc main_v19) = specOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 6).trans (final6 m c (hp c)),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.HandValue

end
-- ==== Proof.RefStages.lean ====
/-
  Three stages of the reference that depend on an operand's values or join operands, read at an index.
-/
import proofs.«403358_j37769942401723_3_alg».proof.Proof.Gen.ReferenceIdeal
import proofs.«403358_j37769942401723_3_alg».proof.Proof.Spec
import Idealize.ShloMosaic.Lib.ValueIdx
import Idealize.ShloMosaic.Lib.Pipeline.Value
import Idealize.ShloMosaic.Lib.ValueLayout
import Idealize.ShloMosaic.Lib.ReduceAll
import Idealize.ShloMosaic.PureOps.Ideal.Laws

noncomputable section

namespace Cert.ReferenceIdeal.RefStages

open Cert.ReferenceIdeal Cert.ReferenceIdeal.Gen
open Idealize.ShloMosaic Idealize.ShloMosaic.TcCoe Idealize.ShloMosaic.ValueIdx

/-! ## The row gather -/

/-- The gather's dimension numbers: the table's axis 0 is a batching axis paired with the queries' axis 0, its axis 1
    is collapsed and named by the one-component start index, its axis 2 is the result's offset axis. -/
private abbrev gd := gather_S32x1024x1024_S32x512x1_S32x512x1024_2_1_0_0_1_2_111024

/-- Result entry `(b, q, e)` reads its start index's one component at `(b, q, 0)`: the result's two batch coordinates,
    and the component's number, which is 0 because the start index has one component. -/
private theorem gd_siIdx (b : Fin 32) (q : Fin 512) (e : Fin 1024) (c : Fin gd.startIndexMap.length) :
    gd.siIdx (ix3 b q e) c = ix3 b q 0 := by
  funext a
  refine Fin.ext ?_
  match a with
  | ⟨0, _⟩ => rfl
  | ⟨1, _⟩ => rfl
  | ⟨2, _⟩ =>
    have hc : c.val = 0 := by have := c.isLt; have h : gd.startIndexMap.length = 1 := rfl; omega
    show c.val = 0
    exact hc

/-- The row gather: with one row number per query, in the table's range, entry `(b, q, e)` of the gathered array is
    entry `e` of that row of batch `b`'s table. -/
theorem gather_apply (x : FVec Ideal S32x1024x1024 .f32) (i : IVec S32x512x1 32) (b : Fin 32) (q : Fin 512) (e : Fin 1024)
    (hi : 0 ≤ (i (ix3 b q 0)).toInt ∧ (i (ix3 b q 0)).toInt < 1024) :
    Host.gather gather_S32x1024x1024_S32x512x1_S32x512x1024_2_1_0_0_1_2_111024 x i (ix3 b q e)
      = x (ix3 b (Cert.Spec.row (i (ix3 b q 0))) e) := by
  unfold Host.gather
  congr 1
  funext a
  refine Fin.ext ?_
  -- on each operand axis: the clamped start, plus the batch coordinate, plus the offset coordinate
  show gd.start (ix3 b q e) i a + gd.batchCoord (ix3 b q e) a + gd.offCoord (ix3 b q e) a = _
  match a with
  | ⟨0, _⟩ =>
    -- the batching axis: no start, no offset, the result's batch coordinate `b`
    have h1 : gd.batchCoord (ix3 b q e) ⟨0, by decide⟩ = b.val := rfl
    have h2 : gd.offCoord (ix3 b q e) ⟨0, by decide⟩ = 0 := rfl
    have h3 : gd.start (ix3 b q e) i ⟨0, by decide⟩ = 0 := rfl
    rw [h1, h2, h3]
    show 0 + b.val + 0 = b.val
    omega
  | ⟨1, _⟩ =>
    -- the collapsed axis: the start index read signed and clamped into [0, 1023]; in range the clamp is the identity
    -- and a non-negative signed value is the unsigned one, below 1024, so its residue mod 1024 is itself
    have h1 : gd.batchCoord (ix3 b q e) ⟨1, by decide⟩ = 0 := rfl
    have h2 : gd.offCoord (ix3 b q e) ⟨1, by decide⟩ = 0 := rfl
    have h3 : gd.start (ix3 b q e) i ⟨1, by decide⟩
        = min (i (gd.siIdx (ix3 b q e) ⟨0, by decide⟩)).toInt.toNat 1023 := rfl
    rw [h1, h2, h3, gd_siIdx b q e]
    show _ = (i (ix3 b q 0)).toNat % 1024
    have hc := BitVec.toInt_eq_toNat_cond (i (ix3 b q 0))
    have hlt := (i (ix3 b q 0)).isLt
    omega
  | ⟨2, _⟩ =>
    -- the offset axis: no start, no batch coordinate, the result's offset coordinate `e`
    have h1 : gd.batchCoord (ix3 b q e) ⟨2, by decide⟩ = 0 := rfl
    have h2 : gd.offCoord (ix3 b q e) ⟨2, by decide⟩ = e.val := rfl
    have h3 : gd.start (ix3 b q e) i ⟨2, by decide⟩ = 0 := rfl
    rw [h1, h2, h3]
    show 0 + 0 + e.val = e.val
    omega

/-! ## The conjunction over an axis of extent one -/

/-- A fold over an index set of one element is the operation applied once. -/
private theorem fold_fin_one {α : Type} (op : α → α → α) [Std.Commutative op] [Std.Associative op] (init : α)
    {n : Nat} (hn : n = 1) (f : Fin n → α) :
    (Finset.univ : Finset (Fin n)).fold op init f = op (f ⟨0, by omega⟩) init := by
  subst hn
  rw [Finset.univ_unique, Finset.fold_singleton]
  rfl

/-- The bit 1 is the conjunction's neutral element. -/
private theorem andi_one (y : BitVec 1) : IntOp.andi y 1#1 = y := by
  revert y; decide

/-- The conjunction over an axis of extent one is the one entry. -/
theorem reduce_and_apply (v : IVec S32x512x1 1) (b : Fin 32) (q : Fin 512) :
    Host.reduce IntOp.andi v (constantI S_ 1 1#1) reducesTo_S32x512x1_S32x512_d2 h_S_ (ix2 b q) = v (ix3 b q 0) := by
  have hR : S32x512x1.Reduces [2] S32x512 := by decide
  -- the reduction at (b, q) folds over the dropped axis's coordinates, of which there is one
  rw [Host.reduce_eq_fold_single (a := 2) IntOp.andi v _ reducesTo_S32x512x1_S32x512_d2 hR h_S_,
    fold_fin_one IntOp.andi _ (rfl : S32x512x1.size 2 = 1)]
  -- (b, q) with the coordinate 0 inserted on the last axis is (b, q, 0)
  have hl : hR.lift (ix2 b q) ⟨0, by decide⟩ = ix3 b q 0 := by
    funext c
    refine Fin.ext ?_
    match c with
    | ⟨0, _⟩ => rfl
    | ⟨1, _⟩ => rfl
    | ⟨2, _⟩ => rfl
  show IntOp.andi (v (hR.lift (ix2 b q) ⟨0, _⟩)) 1#1 = _
  rw [hl, andi_one]

/-! ## The join of three pieces -/

/-- The join of three [32, 512, 1024] arrays along the last axis: column `k · 1024 + e` is piece `k`'s column `e`. -/
theorem concat_apply (a0 a1 a2 : FVec Ideal S32x512x1024 .f32) (b : Fin 32) (q : Fin 512) (k : Fin 3) (e : Fin 1024) :
    concatenate S32x512x3072 2 [⟨S32x512x1024, a0⟩, ⟨S32x512x1024, a1⟩, ⟨S32x512x1024, a2⟩]
        concatenates_S32x512x1024_S32x512x1024_S32x512x1024_S32x512x3072_d2 (ix3 b q (Cert.Spec.wcol k e))
      = (match k with | ⟨0, _⟩ => a0 | ⟨1, _⟩ => a1 | ⟨2, _⟩ => a2) (ix3 b q e) := by
  -- off the joined axis the piece's index has the joined array's coordinates
  have hi : ∀ (n : Nat) (hn : n < 3) (c : Fin S32x512x1024.rank), c.cast (rfl : S32x512x1024.rank = S32x512x3072.rank) ≠ 2 →
      ((ix3 b q e : S32x512x1024.Idx) c).val
        = ((ix3 b q (Cert.Spec.wcol ⟨n, hn⟩ e) : S32x512x3072.Idx) (c.cast (rfl : S32x512x1024.rank = S32x512x3072.rank))).val := by
    intro n hn c hc
    match c with
    | ⟨0, _⟩ => rfl
    | ⟨1, _⟩ => rfl
    | ⟨2, _⟩ => exact absurd rfl hc
  -- piece `k` begins after `k` pieces of 1024 columns, and column `k · 1024 + e` is its column `e`
  match k with
  | ⟨0, h0⟩ =>
    exact concatenate_apply_piece (2 : Fin S32x512x3072.rank) _ _ _ 0 (by show (0 : Nat) < 3; omega) S32x512x1024 a0 rfl rfl 0 rfl
      (ix3 b q e) (hi 0 h0) (by show 0 + e.val = 0 * 1024 + e.val; omega)
  | ⟨1, h1⟩ =>
    exact concatenate_apply_piece (2 : Fin S32x512x3072.rank) _ _ _ 1 (by show (1 : Nat) < 3; omega) S32x512x1024 a1 rfl rfl 1024 rfl
      (ix3 b q e) (hi 1 h1) (by show 1024 + e.val = 1 * 1024 + e.val; omega)
  | ⟨2, h2⟩ =>
    exact concatenate_apply_piece (2 : Fin S32x512x3072.rank) _ _ _ 2 (by show (2 : Nat) < 3; omega) S32x512x1024 a2 rfl rfl 2048 rfl
      (ix3 b q e) (hi 2 h2) (by show 2048 + e.val = 2 * 1024 + e.val; omega)

end Cert.ReferenceIdeal.RefStages

end
-- ==== Proof.RefValue.lean ====
/-
  The reference's result is the specification's value of the argument arrays.
-/
import proofs.«403358_j37769942401723_3_alg».proof.Proof.ReadP
import proofs.«403358_j37769942401723_3_alg».proof.Proof.RefStages
import proofs.«403358_j37769942401723_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Cert.ReferenceIdeal.RefStages
open Idealize.ShloMosaic Idealize.ShloMosaic.TcCoe Idealize.ShloMosaic.ValueIdx Idealize.SL.Sem

/-! ### One row taken per query along the table's row axis -/

/-- A column of row numbers with the negative ones moved up by the table's 1024 rows. -/
def wrapped (col : IVec S32x512x1 32) : IVec S32x512x1 32 :=
  select (cmpi .slt col (broadcastInDim S32x512x1 ![] bcast_S_S32x512x1 (constantI S_ 32 0#32)))
    (addi col (broadcastInDim S32x512x1 ![] bcast_S_S32x512x1 (constantI S_ 32 1024#32))) col

/-- Per query, whether its moved row number lies in the table's range [0, 1023]. -/
def inRange (col : IVec S32x512x1 32) : IVec S32x512 1 :=
  Host.reduce IntOp.andi
    (andi (cmpi .sge (wrapped col) (broadcastInDim S32x512x1 ![] bcast_S_S32x512x1 (constantI S_ 32 0#32)))
      (cmpi .sle (wrapped col) (broadcastInDim S32x512x1 ![0, 1, 2] bcast_S1x1x1_S32x512x1_0_1_2
        (broadcastInDim S1x1x1 ![2] bcast_S1_S1x1x1_2 (constantI S1 32 1023#32)))))
    (constantI S_ 1 1#1) reducesTo_S32x512x1_S32x512_d2 h_S_

/-- The rows a column of row numbers takes from each batch's table: the gathered row where the number is in range, a
    not-a-number filler elsewhere. -/
def taken (x : FVec Ideal S32x1024x1024 .f32) (col : IVec S32x512x1 32) : FVec Ideal S32x512x1024 .f32 :=
  select (broadcastInDim S32x512x1024 ![0, 1] bcast_S32x512_S32x512x1024_0_1 (inRange col))
    (Host.gather gather_S32x1024x1024_S32x512x1_S32x512x1024_2_1_0_0_1_2_111024 x (wrapped col))
    (broadcastInDim S32x512x1024 ![] bcast_S_S32x512x1024 (constant (F := Ideal) S_ .f32 0x7FC00000#32))

/-- A non-negative row number is not moved. -/
theorem wrapped_apply (col : IVec S32x512x1 32) (i : S32x512x1.Idx) (h0 : 0 ≤ (col i).toInt) : wrapped col i = col i := by
  show Scalar.select (IntOp.cmpi .slt (col i) 0#32) _ (col i) = col i
  refine if_neg (fun hcm => ?_)
  have hlt := IntOp.cmpi_slt.1 hcm
  have hz : (0#32 : BitVec 32).toInt = 0 := by decide
  omega

/-- A row number in [0, 1024) is in range. -/
theorem inRange_apply (col : IVec S32x512x1 32) (b : Fin 32) (q : Fin 512)
    (hc : 0 ≤ (col (ix3 b q 0)).toInt ∧ (col (ix3 b q 0)).toInt < 1024) : inRange col (ix2 b q) = 1#1 := by
  unfold inRange
  rw [reduce_and_apply]
  show IntOp.andi (IntOp.cmpi .sge (wrapped col (ix3 b q 0)) 0#32) (IntOp.cmpi .sle (wrapped col (ix3 b q 0)) 1023#32) = 1#1
  rw [wrapped_apply col _ hc.1, IntOp.andi_eq_one, IntOp.cmpi_sge, IntOp.cmpi_sle]
  have hz : (0#32 : BitVec 32).toInt = 0 := by decide
  have hm : (1023#32 : BitVec 32).toInt = 1023 := by decide
  constructor <;> omega

/-- With the row number in [0, 1024), entry `(b, q, e)` of the taken rows is entry `e` of that row of batch `b`'s table. -/
theorem taken_apply (x : FVec Ideal S32x1024x1024 .f32) (col : IVec S32x512x1 32) (b : Fin 32) (q : Fin 512) (e : Fin 1024)
    (hc : 0 ≤ (col (ix3 b q 0)).toInt ∧ (col (ix3 b q 0)).toInt < 1024) :
    taken x col (ix3 b q e) = x (ix3 b (Cert.Spec.row (col (ix3 b q 0))) e) := by
  have hb : broadcastInDim S32x512x1024 ![0, 1] bcast_S32x512_S32x512x1024_0_1 (inRange col) (ix3 b q e) = inRange col (ix2 b q) :=
    broadcastInDim_apply _ bcast_S32x512_S32x512x1024_0_1 (inRange col) (ix3 b q e) (ix2 b q) (fun a => match a with
      | ⟨0, _⟩ => by show b.val = if (32 : Nat) = 1 then 0 else b.val; rw [if_neg (by decide)]
      | ⟨1, _⟩ => by show q.val = if (512 : Nat) = 1 then 0 else q.val; rw [if_neg (by decide)])
  unfold taken
  rw [select_apply, hb, inRange_apply col b q hc, select_one,
    gather_apply x (wrapped col) b q e (by rw [wrapped_apply col _ hc.1]; exact hc), wrapped_apply col _ hc.1]

/-! ### The four columns of row numbers -/

/-- The head span's start column is the position array's entry `(b, q, 0, 0)`. -/
theorem col_v2_apply (p : IVec S32x512x2x2 32) (b : Fin 32) (q : Fin 512) :
    val_main_v2 (F := Ideal) p (ix3 b q 0) = p (ix4 b q 0 0) := by
  rw [val_main_v2_apply, val_main_v1_apply, val_main_v0_apply]
  refine congrArg p (funext fun a => Fin.ext ?_)
  have hb := b.isLt
  have hq := q.isLt
  match a with
  | ⟨0, _⟩ => show (b.val * 512 + q.val) / 512 = b.val; omega
  | ⟨1, _⟩ => show (b.val * 512 + q.val) / 1 % 512 = q.val; omega
  | ⟨2, _⟩ => rfl
  | ⟨3, _⟩ => rfl

/-- The head span's end column is entry `(b, q, 0, 1)`. -/
theorem col_v6_apply (p : IVec S32x512x2x2 32) (b : Fin 32) (q : Fin 512) :
    val_main_v6 (F := Ideal) p (ix3 b q 0) = p (ix4 b q 0 1) := by
  rw [val_main_v6_apply, val_main_v5_apply, val_main_v4_apply]
  refine congrArg p (funext fun a => Fin.ext ?_)
  have hb := b.isLt
  have hq := q.isLt
  match a with
  | ⟨0, _⟩ => show (b.val * 512 + q.val) / 512 = b.val; omega
  | ⟨1, _⟩ => show (b.val * 512 + q.val) / 1 % 512 = q.val; omega
  | ⟨2, _⟩ => rfl
  | ⟨3, _⟩ => rfl

/-- The tail span's start column is entry `(b, q, 1, 0)`. -/
theorem col_v13_apply (p : IVec S32x512x2x2 32) (b : Fin 32) (q : Fin 512) :
    val_main_v13 (F := Ideal) p (ix3 b q 0) = p (ix4 b q 1 0) := by
  rw [val_main_v13_apply, val_main_v12_apply, val_main_v11_apply]
  refine congrArg p (funext fun a => Fin.ext ?_)
  have hb := b.isLt
  have hq := q.isLt
  match a with
  | ⟨0, _⟩ => show (b.val * 512 + q.val) / 512 = b.val; omega
  | ⟨1, _⟩ => show (b.val * 512 + q.val) / 1 % 512 = q.val; omega
  | ⟨2, _⟩ => rfl
  | ⟨3, _⟩ => rfl

/-- The tail span's end column is entry `(b, q, 1, 1)`. -/
theorem col_v17_apply (p : IVec S32x512x2x2 32) (b : Fin 32) (q : Fin 512) :
    val_main_v17 (F := Ideal) p (ix3 b q 0) = p (ix4 b q 1 1) := by
  rw [val_main_v17_apply, val_main_v16_apply, val_main_v15_apply]
  refine congrArg p (funext fun a => Fin.ext ?_)
  have hb := b.isLt
  have hq := q.isLt
  match a with
  | ⟨0, _⟩ => show (b.val * 512 + q.val) / 512 = b.val; omega
  | ⟨1, _⟩ => show (b.val * 512 + q.val) / 1 % 512 = q.val; omega
  | ⟨2, _⟩ => rfl
  | ⟨3, _⟩ => rfl

/-! ### The two span embeddings and their product -/

section Spans
variable (p : IVec S32x512x2x2 32) (h : FVec Ideal S32x1024x1024 .f32)
  (hp : ∀ j : S32x512x2x2.Idx, 0 ≤ (p j).toInt ∧ (p j).toInt < 1024)
include hp

/-- The head span's embedding: half the sum of its two rows. -/
theorem head_apply (b : Fin 32) (q : Fin 512) (e : Fin 1024) :
    val_main_v10 (F := Ideal) p h (ix3 b q e) = Cert.Spec.span p h b q 0 e := by
  have e3 : val_main_v3 (F := Ideal) p h = taken h (val_main_v2 (F := Ideal) p) := rfl
  have e7 : val_main_v7 (F := Ideal) p h = taken h (val_main_v6 (F := Ideal) p) := rfl
  rw [val_main_v10_apply, val_main_v9_apply, val_main_cst_apply, val_main_v8_apply, e3, e7,
    taken_apply h _ b q e (by rw [col_v2_apply]; exact hp _), taken_apply h _ b q e (by rw [col_v6_apply]; exact hp _),
    col_v2_apply, col_v6_apply]
  rfl

/-- The tail span's embedding. -/
theorem tail_apply (b : Fin 32) (q : Fin 512) (e : Fin 1024) :
    val_main_v21 (F := Ideal) p h (ix3 b q e) = Cert.Spec.span p h b q 1 e := by
  have e14 : val_main_v14 (F := Ideal) p h = taken h (val_main_v13 (F := Ideal) p) := rfl
  have e18 : val_main_v18 (F := Ideal) p h = taken h (val_main_v17 (F := Ideal) p) := rfl
  rw [val_main_v21_apply, val_main_v20_apply, val_main_cst_0_apply, val_main_v19_apply, e14, e18,
    taken_apply h _ b q e (by rw [col_v13_apply]; exact hp _), taken_apply h _ b q e (by rw [col_v17_apply]; exact hp _),
    col_v13_apply, col_v17_apply]
  rfl

/-- The features' first third is the head's embedding … -/
theorem feat0_apply (b : Fin 32) (q : Fin 512) (e : Fin 1024) :
    val_main_v23 (F := Ideal) p h (ix3 b q (Cert.Spec.wcol 0 e)) = Cert.Spec.span p h b q 0 e := by
  unfold val_main_v23
  rw [concat_apply]
  exact head_apply p h hp b q e

/-- … the second the tail's … -/
theorem feat1_apply (b : Fin 32) (q : Fin 512) (e : Fin 1024) :
    val_main_v23 (F := Ideal) p h (ix3 b q (Cert.Spec.wcol 1 e)) = Cert.Spec.span p h b q 1 e := by
  unfold val_main_v23
  rw [concat_apply]
  exact tail_apply p h hp b q e

/-- … and the third their product. -/
theorem feat2_apply (b : Fin 32) (q : Fin 512) (e : Fin 1024) :
    val_main_v23 (F := Ideal) p h (ix3 b q (Cert.Spec.wcol 2 e)) = Cert.Spec.span p h b q 0 e * Cert.Spec.span p h b q 1 e := by
  unfold val_main_v23
  rw [concat_apply]
  show val_main_v22 (F := Ideal) p h (ix3 b q e) = _
  rw [val_main_v22_apply, head_apply p h hp b q e, tail_apply p h hp b q e]
  rfl

end Spans

/-! ### The result -/

/-- The contraction reads the features at `(b, q, k)` … -/
theorem lidx_eq (b : Fin 32) (q : Fin 512) (r : Fin 256) (k : Fin 3072) : lidx_main_v24 (ix3 b q r) k = ix3 b q k := by
  funext a
  match a with
  | ⟨0, _⟩ => rfl
  | ⟨1, _⟩ => rfl
  | ⟨2, _⟩ => rfl

/-- … and the weight at `(r, k)`. -/
theorem ridx_eq (b : Fin 32) (q : Fin 512) (r : Fin 256) (k : Fin 3072) : ridx_main_v24 (ix3 b q r) k = ix2 r k := by
  funext a
  match a with
  | ⟨0, _⟩ => rfl
  | ⟨1, _⟩ => rfl

/-- The reference's last stage, as a function of the four argument arrays, is the specification when every position word
    is a row of the table: each take-along-axis reads the named row, a span is the mean of its two rows, and the product
    of the joined features with the weight's rows is the three sums over the weight's thirds of columns. -/
theorem stage_eq_G (p : IVec S32x512x2x2 32) (h : FVec Ideal S32x1024x1024 .f32) (W : FVec Ideal S256x3072 .f32) (bias : FVec Ideal S256 .f32)
    (hp : ∀ j : S32x512x2x2.Idx, 0 ≤ (p j).toInt ∧ (p j).toInt < 1024) :
    val_main_v27 (F := Ideal) p h W bias = Cert.Spec.G p h W bias := by
  funext j
  obtain ⟨b, q, r, rfl⟩ : ∃ b q r, j = ix3 b q r := ⟨j 0, j 1, j 2, eq_ix3 j⟩
  rw [val_main_v27_apply, val_main_v24_apply, val_main_v26_apply, val_main_v25_apply, Cert.Spec.G_apply,
    Cert.Spec.sum_thirds]
  unfold Cert.Spec.outAt
  simp only [lidx_eq, ridx_eq]
  refine congrArg₂ (· + ·) (congrArg₂ (· + ·) (congrArg₂ (· + ·) ?_ ?_) ?_) ?_
  · exact Finset.sum_congr rfl fun e _ => by rw [feat0_apply p h hp b q e]
  · exact Finset.sum_congr rfl fun e _ => by rw [feat1_apply p h hp b q e]
  · exact Finset.sum_congr rfl fun e _ => by rw [feat2_apply p h hp b q e]
  · refine congrArg bias (funext fun a => ?_)
    match a with
    | ⟨0, _⟩ => rfl

/-- The reference run's result term is the specification's value of the launch memory's argument arrays. -/
theorem res_eq_G (m : (ℓ : Loc nD τ sig) → Buf (Elt Ideal) ℓ) (c : Dev nD)
    (hp : ∀ j : S32x512x2x2.Idx, 0 ≤ ((m ((c.tc : Thread nD τ).loc main_arg0) : IVec S32x512x2x2 32) j).toInt
      ∧ ((m ((c.tc : Thread nD τ).loc main_arg0) : IVec S32x512x2x2 32) j).toInt < 1024) :
    Cert.ReferenceIdeal.ValueP.res_main_v27 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3)) :=
  (val_main_v27_eq m c).trans (stage_eq_G _ _ _ _ hp)

end Cert.ReferenceIdeal.RefValue

end
-- ==== Proof.PreDecode.lean ====
/-
  What the precondition says of the position words.
-/
import proofs.«403358_j37769942401723_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Cert.Pre_finite_inputs

/-- Under the precondition every position word is a row of the 1024-row table: read as a signed integer it lies in [0, 1024). -/
theorem pairs_inrange [Cert.Pre_finite_inputs.Facts] (p : IVec S32x512x2x2 32) (h : FVec Ideal S32x1024x1024 .f32) (W : FVec Ideal S256x3072 .f32) (b : FVec Ideal S256 .f32)
    (hpre : Cert.Pre_finite_inputs.fn (F := Ideal) p h W b = fun _ => 1#1) :
    ∀ j : S32x512x2x2.Idx, 0 ≤ (p j).toInt ∧ (p j).toInt < 1024 := by
  intro j
  haveI : Subsingleton S_.Idx := ⟨fun a b => funext fun d => d.elim0⟩
  have h0 := congrFun hpre ValueIdx.ix0
  dsimp only [fn, fn_part1] at h0
  have h1 := (IntOp.andi_eq_one.1 h0).2
  have h2 := Host.reduce_andi_all _ _ _ _ _ h1 j
  obtain ⟨hge, hlt⟩ := IntOp.andi_eq_one.1 h2
  have hge' := IntOp.cmpi_sge.1 hge
  have hlt' := IntOp.cmpi_slt.1 hlt
  rw [StableHlo.Predicate.bcast_scalar _ Facts.h_S_] at hge' hlt'
  exact ⟨hge', hlt'⟩

end Cert.PreDecode

end
-- ==== Proof.lean ====
/-
  The certificate: both programs compute, for every query, the product of its span features with the weight plus the bias.

  Under the precondition every position word names a row of its batch's 1024-row hidden-state table.  The kernel clamps
  the words (the identity on that range), gathers each span's two rows by a product of the hidden states with the sum of
  two indicator rows, and projects the head, the tail and their product with the weight's three thirds of columns; the
  reference gathers the rows by index, joins head, tail and product and contracts the 3072 joined columns with the
  weight.  Over the extended reals both are the specification `Cert.Spec.G` of the four argument arrays.  Each program's
  frame — it runs to the end, faults nowhere, leaves its argument arrays unchanged — holds on every input: the kernel's by
  its pipeline's frame run, the reference's by its run read back.  The idealization rewrote nothing.
-/
import proofs.«403358_j37769942401723_3_alg».proof.Defs
import proofs.«403358_j37769942401723_3_alg».proof.Proof.Gen.Kernel
import proofs.«403358_j37769942401723_3_alg».proof.Proof.Gen.KernelIdeal
import proofs.«403358_j37769942401723_3_alg».proof.Proof.Gen.ReferenceIdeal
import proofs.«403358_j37769942401723_3_alg».proof.Proof.Gen.Pre_finite_inputs
import proofs.«403358_j37769942401723_3_alg».proof.Proof.FrameK
import proofs.«403358_j37769942401723_3_alg».proof.Proof.FrameKI
import proofs.«403358_j37769942401723_3_alg».proof.Proof.KValue
import proofs.«403358_j37769942401723_3_alg».proof.Proof.RefRunP
import proofs.«403358_j37769942401723_3_alg».proof.Proof.RefValue
import proofs.«403358_j37769942401723_3_alg».proof.Proof.PreDecode
import Idealize.ShloMosaic.Adequacy
import Idealize.ShloMosaic.Init

noncomputable section

namespace Cert.Proof

open Idealize.ShloMosaic Idealize.SL.Sem

/-- The word-level kernel's frame. -/
theorem frame_k : Cert.frame_Kernel := fun m ρ _ => Cert.Kernel.Hand.frame m ρ

/-- The idealized kernel's frame. -/
theorem frame_ki : Cert.frame_KernelIdeal := fun m ρ _ => Cert.KernelIdeal.Hand.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs, from memories agreeing on the arguments, end with the specification's array. -/
theorem algebraic : Cert.algebraic_KernelIdeal_ReferenceIdeal := by
  intro m ρ m' ρ' hpre hagree
  have hp : ∀ c, Cert.KernelIdeal.HandValue.InRange m c := fun c =>
    Cert.PreDecode.pairs_inrange _ _ _ _ (hpre c)
  refine ⟨fun c => Cert.KernelIdeal.HandValue.specOf m c, Cert.KernelIdeal.HandValue.run m ρ hp, ?_⟩
  refine (θ_run Cert.ReferenceIdeal.defs _ _).mono (fun _ h c => ⟨(h c).1.trans ?_, (h c).2⟩)
    (Cert.ReferenceIdeal.ValueP.run (F := Ideal) m' ρ')
  have hp' : ∀ j, 0 ≤ ((m' ((c.tc : Thread Cert.ReferenceIdeal.nD Cert.ReferenceIdeal.τ).loc Cert.ReferenceIdeal.main_arg0)
        : IVec Cert.ReferenceIdeal.S32x512x2x2 32) j).toInt
      ∧ ((m' ((c.tc : Thread Cert.ReferenceIdeal.nD Cert.ReferenceIdeal.τ).loc Cert.ReferenceIdeal.main_arg0)
        : IVec Cert.ReferenceIdeal.S32x512x2x2 32) j).toInt < 1024 := by
    rw [(hagree c).1]; exact hp c
  rw [Cert.ReferenceIdeal.RefValue.res_eq_G m' c hp', (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
